-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S512x1024 : Shape := ⟨2, ![512, 1024]⟩
abbrev S512x512 : Shape := ⟨2, ![512, 512]⟩
abbrev S1x512 : Shape := ⟨2, ![1, 512]⟩

abbrev nBuf : Space → Nat
  | .hbm => 5
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x1, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512, .f32⟩
  | .local _ .vmem, ⟨11, _⟩ => ⟨S512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v30 : BitVec 1 := Scalar.cmpi .eq arg2 c3_i32
  let v31 : BitVec 32 := Scalar.extui v30
  let c0_i32_15 : BitVec 32 := 0#32
  let v32 : BitVec 1 := Scalar.cmpi .ne v31 c0_i32_15
  v32

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1_S512x1 : S512x1.ShapeCasts S512x1
  broadcasts_S512x1_S512x1024 : S512x1.Broadcasts S512x1024
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  shapeCasts_S1x512_S1x512 : S1x512.ShapeCasts S1x512
  broadcasts_S1x512_S512x512 : S1x512.Broadcasts S512x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S4096.size a
  hwx1_3 : ∀ i : grid1.Coords, EltTy.bits .f32 = 32 ∨ (Rect.block (s := S4096) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x4096.size a
  hwx1_4 : ∀ i : grid1.Coords, EltTy.bits .f32 = 32 ∨ (Rect.block (s := S8192x4096) S512x512.size (cc1_transform_4 i) (hinb1_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .i1⟩
  | .hbm, ⟨18, _⟩ => ⟨S4096x1, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_5 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KI.Body0.lean ====
/-
  The first kernel region: per-row scale of the weight matrix.

  The grid has 8 points; point t reads rows 512·t … 512·t+511 of the weight matrix (a block of 512 × 4096) and
  writes the block of 512 × 1 holding, for each of those rows, max (mean |w|, ε).  The body is one load of the
  input block, one pure function of it (`k0_pay1`), one whole store into the output block.  Stated here, at any
  instance of the float operations and for any contents `V` the region finds in the buffers: what the body leaves
  in the output block as a function of the input block, the body's triple, the pipeline's proof data and its
  body obligation.
-/
import proofs.«102023_j37434934952235_1_alg».proof.Proof.Gen.KernelIdeal.Launch
import proofs.«102023_j37434934952235_1_alg».proof.Proof.Gen.KernelIdeal.Skeleton
import proofs.«102023_j37434934952235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight block of the point, for any proof data over `V` whose
    body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block as rectangles. -/
abbrev rW0 : Rect S512x4096 := Rect.unit (s := S512x4096) ![0, 0] S512x4096.size inb_S512x4096_S512x4096_0_0
abbrev rS0 : Rect S512x1 := Rect.unit (s := S512x1) ![0, 0] S512x1.size inb_S512x1_S512x1_0_0

/-- What the body leaves in the scale block: its one store, of the row scales of the weight block. -/
def scaleBlk (x0 : Vec F S512x4096 .f32) : Vec F S512x1 .f32 :=
  View.canon [⟨rS0, k0_pay1 (View.ld x0 rW0)⟩]

/-- The one store covers the block. -/
theorem scaleBlk_cover (p0 : Vec F S512x1 .f32) (y : S512x1.Idx) :
    ∃ pc ∈ ([⟨rS0, p0⟩] : List (View.Piece (Elt F) S512x1 .f32)), y ∈ pc.1.set :=
  View.cover_of_tiled [⟨rS0, p0⟩] S512x1.size (by rfl) y

set_option maxHeartbeats 1000000 in
/-- The body on whole staging buffers: the weight block read and kept, the scale block left at `scaleBlk`. -/
theorem sound_kernel0 (c : Dev nD) (E : Set ℕ) (i : grid0.Coords) (arg1 : Memref sig .tc .vmem S512x4096 .f32) (harg1 : arg1.IsWhole)
    (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (scaleBlk x0)) -∗ K ⟨⟩))
      ⊢ wp frame (wpE (defs₀ (F := F)) Variants.none c none) E (cc0__scale_kernel i arg1 harg1 arg2 harg2) K := by
  simp only [cc0__scale_kernel_eq_skeleton]; unfold cc0__scale_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (scaleBlk_cover _)

/-- The proof data of the first region on core `c`: the arrays as found; the weight block kept, the scale block at
    `scaleBlk` of the weight block; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => scaleBlk (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = scaleBlk (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second kernel region: the product with the ternary weights, a block of the contraction at a time.

  The grid is 16 × 8 × 4: point (i, j, k) reads block (i, k) of x (512 × 1024), block (j, k) of the weight matrix
  (512 × 1024), block j of the row scales (512 × 1) and of the bias (512), and owns block (i, j) of the result
  (512 × 512).  A scratch accumulator of 512 × 512 is carried along k: at k = 0 it is set to zero, at every k the
  block's partial product is added to it (`accStep`), and at k = 3 the accumulator plus the bias row is stored into
  the result block (`outBlk`), which is written back there and at no other point.  So the body has three control
  cases — first step, middle step, last step — and the result window is idle except in the last.

  Stated here, at any instance of the float operations and for any contents `V` the region finds: the three runs of
  the body, what the accumulator holds after each point (`accAt`, by recursion on the point), the invariant that
  carries it, the pipeline's proof data and its body obligation.
-/
import proofs.«102023_j37434934952235_1_alg».proof.Proof.Gen.KernelIdeal.Launch
import proofs.«102023_j37434934952235_1_alg».proof.Proof.Gen.KernelIdeal.Skeleton
import proofs.«102023_j37434934952235_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block of the point, fetched there or kept from an earlier point with
    the same block index, for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, from the grid coordinates -/

/-- "This is the first block of the contraction" (k = 0), as the body computes it. -/
abbrev cond1_0 (i : grid1.Coords) : Prop := (Scalar.cmpi .ne (Scalar.extui (Scalar.cmpi .eq (BitVec.ofNat 32 (i 2).val) 0#32)) 0#32) = 1#1
/-- It holds at the points ≡ 0 (mod 4): k is the fastest grid axis, of extent 4. -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block of the contraction" (k = 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The result window is idle away from the last block, live at it; never written back away from it. -/
theorem idle1_4 (t : Fin cfg1.N) (h : ¬cond1_1 (grid1.coords t)) : cfg1.idle 4 (grid1.coords t) = true := by
  show (!(k1_cond2 (grid1.coords t) == 1#1)) = true
  rw [Bool.not_eq_true', beq_eq_false_iff_ne]; exact h
theorem live1_4 (t : Fin cfg1.N) (h : cond1_1 (grid1.coords t)) : cfg1.idle 4 (grid1.coords t) = false := by
  show (!(k1_cond2 (grid1.coords t) == 1#1)) = false
  rw [Bool.not_eq_false', beq_iff_eq]; exact h
theorem noFlush1_4 (t : Fin cfg1.N) (h : ¬t.val % 4 = 3) : (cfg1.win 4).flush t = false := by
  cases hf : (cfg1.win 4).flush t
  · rfl
  · exact absurd ((flush1_4 t).mp hf) h

/-! ## The body's pure steps -/

/-- The zero block the accumulator is reset to. -/
def accZero : Vec F S512x512 .f32 := k1_pay1
/-- One accumulation step: the accumulator plus the product of the x block with the ternary weights of the weight
    block under the row scales. -/
def accStep (x0 : Vec F S512x1024 .f32) (x1 : Vec F S512x1024 .f32) (x2 : Vec F S512x1 .f32) (acc : Vec F S512x512 .f32) : Vec F S512x512 .f32 :=
  k1_pay2 x1 x2 x0 acc
/-- The result block: the accumulator plus the bias row on every row. -/
def outBlk (x3 : Vec F S512 .f32) (acc : Vec F S512x512 .f32) : Vec F S512x512 .f32 := k1_pay3 x3 acc

theorem zero2 : (![0, 0] : Fin 2 → ℕ) = fun _ => 0 := funext fun a => by fin_cases a <;> rfl
theorem zero1 : (![0] : Fin 1 → ℕ) = fun _ => 0 := funext fun a => by fin_cases a; rfl

/-! ## The body's three runs -/

set_option maxHeartbeats 4000000 in
/-- FIRST STEP (k = 0): the accumulator, whatever it held, ends at one step from zero; the result block is not touched. -/
theorem run1_first (c : Dev nD) (E : Set ℕ) (i : grid1.Coords)
    (arg3 : Memref sig .tc .vmem S512x1024 .f32) (harg3 : arg3.IsWhole) (arg4 : Memref sig .tc .vmem S512x1024 .f32) (harg4 : arg4.IsWhole)
    (arg5 : Memref sig .tc .vmem S512x1 .f32) (harg5 : arg5.IsWhole) (arg6 : Memref sig .tc .vmem S512 .f32) (harg6 : arg6.IsWhole)
    (arg7 : Memref sig .tc .vmem S512x512 .f32) (harg7 : arg7.IsWhole) (arg8 : Memref sig .tc .vmem S512x512 .f32) (harg8 : arg8.IsWhole)
    (hc0 : cond1_0 i) (hc1 : ¬cond1_1 i)
    (x0 : Vec F S512x1024 .f32) (x1 : Vec F S512x1024 .f32) (x2 : Vec F S512x1 .f32) (x3 : Vec F S512 .f32) (xi : Vec F S512x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare (accStep x0 x1 x2 accZero)) -∗ K ⟨⟩))
      ⊢ wp frame (wpE (defs₀ (F := F)) Variants.none c none) E (cc1__matmul_kernel i arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; exact hf4
  iexists _; isplitr; swap; · iexact H5
  ipureintro
  sl_unfold_words
  rw [View.read_writes_eq_canon _ _ _ (fun y => ⟨_, List.mem_cons_self, View.mem_set_unit_zero zero2 inb_S512x512_S512x512_0_0 y⟩),
    View.canon_cons_unit_zero (S := S512x512) zero2]
  simp only [View.readAt_eq_ld, harg3.read_unread, harg4.read_unread, harg5.read_unread, View.ld_unit_zero (S := S512x1024) zero2,
    View.ld_unit_zero (S := S512x1) zero2, View.readCov_unit_zero (S := S512x512) _ zero2, accStep, accZero]

set_option maxHeartbeats 4000000 in
/-- MIDDLE STEP (k = 1, 2): the accumulator advances one step; the result block is not touched. -/
theorem run1_mid (c : Dev nD) (E : Set ℕ) (i : grid1.Coords)
    (arg3 : Memref sig .tc .vmem S512x1024 .f32) (harg3 : arg3.IsWhole) (arg4 : Memref sig .tc .vmem S512x1024 .f32) (harg4 : arg4.IsWhole)
    (arg5 : Memref sig .tc .vmem S512x1 .f32) (harg5 : arg5.IsWhole) (arg6 : Memref sig .tc .vmem S512 .f32) (harg6 : arg6.IsWhole)
    (arg7 : Memref sig .tc .vmem S512x512 .f32) (harg7 : arg7.IsWhole) (arg8 : Memref sig .tc .vmem S512x512 .f32) (harg8 : arg8.IsWhole)
    (hc0 : ¬cond1_0 i) (hc1 : ¬cond1_1 i)
    (x0 : Vec F S512x1024 .f32) (x1 : Vec F S512x1024 .f32) (x2 : Vec F S512x1 .f32) (x3 : Vec F S512 .f32) (xi : Vec F S512x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare (accStep x0 x1 x2 xs)) -∗ K ⟨⟩))
      ⊢ wp frame (wpE (defs₀ (F := F)) Variants.none c none) E (cc1__matmul_kernel i arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; exact hf4
  iexists _; isplitr; swap; · iexact H5
  ipureintro
  sl_unfold_words
  rw [View.read_writes_eq_canon _ _ _ (fun y => ⟨_, List.mem_cons_self, View.mem_set_unit_zero zero2 inb_S512x512_S512x512_0_0 y⟩),
    View.canon_cons_unit_zero (S := S512x512) zero2]
  simp only [View.readAt_eq_ld, harg3.read_unread, harg4.read_unread, harg5.read_unread, hf5, View.ld_unit_zero (S := S512x1024) zero2,
    View.ld_unit_zero (S := S512x1) zero2, View.ld_unit_zero (S := S512x512) zero2, accStep]

set_option maxHeartbeats 4000000 in
/-- LAST STEP (k = 3): the accumulator advances one step, and the result block, whatever it held, ends at that
    accumulator plus the bias row. -/
theorem run1_last (c : Dev nD) (E : Set ℕ) (i : grid1.Coords)
    (arg3 : Memref sig .tc .vmem S512x1024 .f32) (harg3 : arg3.IsWhole) (arg4 : Memref sig .tc .vmem S512x1024 .f32) (harg4 : arg4.IsWhole)
    (arg5 : Memref sig .tc .vmem S512x1 .f32) (harg5 : arg5.IsWhole) (arg6 : Memref sig .tc .vmem S512 .f32) (harg6 : arg6.IsWhole)
    (arg7 : Memref sig .tc .vmem S512x512 .f32) (harg7 : arg7.IsWhole) (arg8 : Memref sig .tc .vmem S512x512 .f32) (harg8 : arg8.IsWhole)
    (hc0 : ¬cond1_0 i) (hc1 : cond1_1 i)
    (x0 : Vec F S512x1024 .f32) (x1 : Vec F S512x1024 .f32) (x2 : Vec F S512x1 .f32) (x3 : Vec F S512 .f32) (xi : Vec F S512x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (outBlk x3 (accStep x0 x1 x2 xs)) ∗ owns (c : Thread nD τ) arg8 fullShare (accStep x0 x1 x2 xs)) -∗ K ⟨⟩))
      ⊢ wp frame (wpE (defs₀ (F := F)) Variants.none c none) E (cc1__matmul_kernel i arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    sl_unfold_words
    rw [View.read_writes_eq_canon _ _ _ (fun y => ⟨_, List.mem_cons_self, View.mem_set_unit_zero zero2 inb_S512x512_S512x512_0_0 y⟩),
      View.canon_cons_unit_zero (S := S512x512) zero2]
    simp only [View.readAt_eq_ld, harg3.read_unread, harg4.read_unread, harg5.read_unread, harg6.read_unread, hf5, View.ld_unit_zero (S := S512x1024) zero2,
      View.ld_unit_zero (S := S512x1) zero2, View.ld_unit_zero (S := S512x512) zero2, View.ld_unit_zero (S := S512) zero1,
      View.readCov_unit_zero (S := S512x512) _ zero2, accStep, outBlk]
  iexists _; isplitr; swap; · iexact H5
  ipureintro
  sl_unfold_words
  rw [View.read_writes_eq_canon _ _ _ (fun y => ⟨_, List.mem_cons_self, View.mem_set_unit_zero zero2 inb_S512x512_S512x512_0_0 y⟩),
    View.canon_cons_unit_zero (S := S512x512) zero2]
  simp only [View.readAt_eq_ld, harg3.read_unread, harg4.read_unread, harg5.read_unread, hf5, View.ld_unit_zero (S := S512x1024) zero2,
    View.ld_unit_zero (S := S512x1) zero2, View.ld_unit_zero (S := S512x512) zero2, accStep]

/-! ## The accumulator, point by point -/

/-- What the scratch accumulator holds after the body at position `n`: one step from zero at the first block of a
    contraction (positions ≡ 0 mod 4), else one step from what the position before left. -/
def accAt (c : Dev nD) : (n : ℕ) → n < cfg1.N → Vec F S512x512 .f32
  | 0, hn => accStep (iblk1 V c 0 ⟨0, hn⟩) (iblk1 V c 1 ⟨0, hn⟩) (iblk1 V c 2 ⟨0, hn⟩) accZero
  | n + 1, hn =>
    if (n + 1) % 4 = 0 then accStep (iblk1 V c 0 ⟨n + 1, hn⟩) (iblk1 V c 1 ⟨n + 1, hn⟩) (iblk1 V c 2 ⟨n + 1, hn⟩) accZero
    else accStep (iblk1 V c 0 ⟨n + 1, hn⟩) (iblk1 V c 1 ⟨n + 1, hn⟩) (iblk1 V c 2 ⟨n + 1, hn⟩) (accAt c n (Nat.lt_of_succ_lt hn))

/-- At the first block of a contraction the accumulator is one step from zero. -/
theorem accAt_first (c : Dev nD) (t : Fin cfg1.N) (h0 : t.val % 4 = 0) :
    accAt V c t.val t.isLt = accStep (iblk1 V c 0 t) (iblk1 V c 1 t) (iblk1 V c 2 t) accZero := by
  obtain ⟨n, hn⟩ := t
  cases n with
  | zero => rfl
  | succ n => exact if_pos h0

/-- At a later block it is one step from what the point before left. -/
theorem accAt_next (c : Dev nD) (t : Fin cfg1.N) (h0 : ¬t.val % 4 = 0) :
    accAt V c t.val t.isLt = accStep (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h0
  | succ n => exact if_neg h0

/-- What the result window's staging buffer holds after the body at a last block: the accumulator plus the bias. -/
def outAt (c : Dev nD) (t : Fin cfg1.N) : Vec F S512x512 .f32 := outBlk (iblk1 V c 3 t) (accAt V c t.val t.isLt)

/-! ## The invariant that carries the accumulator -/

/-- The scratch accumulator as a memref. -/
abbrev scM1 : Memref sig .tc .vmem S512x512 .f32 := Memref.whole cc1_scratch0

/-- The core's scoped buffers that the second kernel does not stage — the first kernel's four staging buffers, each at
    some contents, and the accumulator as `S` says — and the generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ S) ∗ ∃ r, prngReg c r)

/-- The region's plain invariant is that with the accumulator at some contents. -/
theorem PhiA1_eq (c : Dev nD) :
    (Pipeline.ΦA spec1 c : sProp 𝕄) = PhiWith c iprop(∃ d, owns (c : Thread nD τ) scM1 fullShare d) := by
  unfold Pipeline.ΦA PhiWith; rw [scopedRest1_eq]; simp only [scM1, owns_whole]; try rfl

/-- The invariant before position `n`: the plain one before the first point, afterwards the accumulator at what the
    point before left. -/
def PhiS1 (c : Dev nD) : (n : ℕ) → n ≤ cfg1.N → sProp 𝕄
  | 0, _ => Pipeline.ΦA spec1 c
  | n + 1, hn => PhiWith c (owns (c : Thread nD τ) scM1 fullShare (accAt V c n hn))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1 fullShare (accAt V c n hn)) := rfl
theorem PhiS1_pos (c : Dev nD) (n : ℕ) (h : n ≤ cfg1.N) (hz : n ≠ 0) :
    PhiS1 V c n h = PhiWith c (owns (c : Thread nD τ) scM1 fullShare (accAt V c (n - 1) (by omega))) := by
  cases n with
  | zero => exact absurd rfl hz
  | succ n => rfl

/-! ## The pipeline's proof data -/

/-- The proof data of the second region on core `c`: the arrays as found; every input block kept; the result block at
    `outAt`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4_live (c : Dev nD) (t : Fin cfg1.N) (h : cond1_1 (grid1.coords t)) :
    (dat1 V c).leavesExact 4 t = owns (c : Thread nD τ) (st1_4 t) fullShare (outAt V c t) := by
  unfold Dat.leavesExact; rw [live1_4 t h, after1_4]

set_option maxHeartbeats 4000000 in
/-- The body at any point: the inputs' buffers hold their blocks; the point's residue mod 4 says which of the three
    runs applies; the invariant hands the body the accumulator at what the point before left (at anything at the first
    point of all) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 512 := lt_of_lt_of_eq t.isLt (show cfg1.N = 512 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idle1_4 t hc1) (noFlush1_4 t h1), accAt_first V c t h0]
    have hpre : (dat1 V c).Φ t.castSucc ⊢ PhiWith c iprop(∃ d, owns (c : Thread nD τ) scM1 fullShare d) := by
      rw [PhiS1_castSucc V c t]
      by_cases hz : t.val = 0
      · rw [PhiS1_zero V c _ _ hz, PhiA1_eq]
      · rw [PhiS1_pos V c _ _ hz]; unfold PhiWith
        iintro ⟨⟨Ha, Hb, Hc, Hd, HS⟩, Hg⟩
        isplitr [Hg]
        · isplitl [Ha]; · iexact Ha
          isplitl [Hb]; · iexact Hb
          isplitl [Hc]; · iexact Hc
          isplitl [Hd]; · iexact Hd
          iexists _; iexact HS
        iexact Hg
    refine (sep_mono hpre .rfl).trans ?_
    unfold PhiWith
    iintro ⟨⟨⟨Ha, Hb, Hc, Hd, ⟨%ds, HS⟩⟩, Hg⟩, Ho, ⟨%d0, H0⟩, ⟨%d1, H1⟩, ⟨%d2, H2⟩, ⟨%d3, H3⟩, ⟨%d4, H4⟩⟩
    iapply (run1_first c Set.univ (grid1.coords t) _ _ _ _ _ _ _ _ _ _ _ _ hc0 hc1 (iblk1 V c 0 t) (iblk1 V c 1 t) (iblk1 V c 2 t) (iblk1 V c 3 t) _ ds _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Ha Hb Hc Hd HS Hg]
    · isplitr [Hg]
      · isplitl [Ha]; · iexact Ha
        isplitl [Hb]; · iexact Hb
        isplitl [Hc]; · iexact Hc
        isplitl [Hd]; · iexact Hd
        iexact HS
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    have hz : t.val ≠ 0 := fun h => h0 (by rw [h])
    rw [PhiS1_castSucc V c t, PhiS1_pos V c _ _ hz, accAt_next V c t h0]
    unfold PhiWith
    by_cases h1 : t.val % 4 = 3
    · have hc1 : cond1_1 (grid1.coords t) := (hcond1_1 t).mpr h1
      rw [leaves1_4_live V c t hc1]
      unfold outAt; rw [accAt_next V c t h0]
      iintro ⟨⟨⟨Ha, Hb, Hc, Hd, HS⟩, Hg⟩, Ho, ⟨%d0, H0⟩, ⟨%d1, H1⟩, ⟨%d2, H2⟩, ⟨%d3, H3⟩, ⟨%d4, H4⟩⟩
      iapply (run1_last c Set.univ (grid1.coords t) _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Ha Hb Hc Hd HS Hg]
      · isplitr [Hg]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4 t hc1) (noFlush1_4 t h1)]
      iintro ⟨⟨⟨Ha, Hb, Hc, Hd, HS⟩, Hg⟩, Ho, ⟨%d0, H0⟩, ⟨%d1, H1⟩, ⟨%d2, H2⟩, ⟨%d3, H3⟩, ⟨%d4, H4⟩⟩
      iapply (run1_mid c Set.univ (grid1.coords t) _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Ha Hb Hc Hd HS Hg]
      · isplitr [Hg]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      isplitl [H3]; · iexact H3
      iexists _; iexact H4

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the plain one back: the accumulator's contents are forgotten. -/
theorem hout1 (c : Dev nD) : (dat1 V c).Φ (Fin.last cfg1.N) ⊢ Pipeline.ΦA spec1 c := by
  have hN : cfg1.N = 512 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  unfold PhiWith
  iintro ⟨⟨Ha, Hb, Hc, Hd, HS⟩, Hg⟩
  isplitr [Hg]
  · isplitl [Ha]; · iexact Ha
    isplitl [Hb]; · iexact Hb
    isplitl [Hc]; · iexact Hc
    isplitl [Hd]; · iexact Hd
    iexists _; iexact HS
  iexact Hg

end Cert.KernelIdeal.Hand

end
-- ==== Proof.KI.Run.lean ====
/-
  The whole program's run: the two kernel regions one after the other, from the launch to the return.

  Between the regions each core holds every unscoped buffer whole: the launch contents at first; after the first
  region the same with the row-scale array at what that region's write-backs leave; after the second region the
  same with the result array at what its write-backs leave.  Each region is entered from the state before it and left
  at the state after it: its arrays are split out of the unscoped buffers and put back at their final contents, the
  generator register goes into the region's invariant and comes back, nothing is owed, the kernels have no semaphore
  of their own.  The run's post reads every unscoped buffer of the final memory against the last contents.
-/
import proofs.«102023_j37434934952235_1_alg».proof.Proof.KI.Body0
import proofs.«102023_j37434934952235_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch (the first region's entry). -/
abbrev W0 : Dev nD → Valuation τ sig (Elt F) := fun c b => m ((c : Dev nD), b)
/-- The same read at the TensorCore's references. -/
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (the second region's entry). -/
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ### What the last contents are, buffer by buffer -/

/-- The weight matrix is an input of both regions: it ends as launched. -/
theorem W1_main_arg1 (c : Dev nD) : W1 m c (Proc.devRef .tc main_arg1) = m ((c : Thread nD τ).loc main_arg1) :=
  (W1_arr m c 0).trans (((dat0 (VA m) c).arrAt_in 0 rfl _).trans (A_eq0 (VA m) c 0))
theorem W1_main_arg0 (c : Dev nD) : W1 m c (Proc.devRef .tc main_arg0) = m ((c : Thread nD τ).loc main_arg0) :=
  W1_of_ne m c main_arg0 (by decide)
theorem W1_main_arg2 (c : Dev nD) : W1 m c (Proc.devRef .tc main_arg2) = m ((c : Thread nD τ).loc main_arg2) :=
  W1_of_ne m c main_arg2 (by decide)
/-- The row scales as the second region finds them: what the first region's write-backs left. -/
theorem W1_main_v0 (c : Dev nD) : W1 m c (Proc.devRef .tc main_v0) = (dat0 (VA m) c).arrAt 1 cfg0.N := W1_arr m c 1

theorem W2_main_arg0 (c : Dev nD) : W2 m c (Proc.devRef .tc main_arg0) = m ((c : Thread nD τ).loc main_arg0) :=
  ((W2_arr m c 0).trans (((dat1 (VB m) c).arrAt_in 0 rfl _).trans (A_eq1 (VB m) c 0))).trans (W1_main_arg0 m c)
theorem W2_main_arg1 (c : Dev nD) : W2 m c (Proc.devRef .tc main_arg1) = m ((c : Thread nD τ).loc main_arg1) :=
  ((W2_arr m c 1).trans (((dat1 (VB m) c).arrAt_in 1 rfl _).trans (A_eq1 (VB m) c 1))).trans (W1_main_arg1 m c)
theorem W2_main_arg2 (c : Dev nD) : W2 m c (Proc.devRef .tc main_arg2) = m ((c : Thread nD τ).loc main_arg2) :=
  ((W2_arr m c 3).trans (((dat1 (VB m) c).arrAt_in 3 rfl _).trans (A_eq1 (VB m) c 3))).trans (W1_main_arg2 m c)
/-- The result array at the end: what the second region's write-backs left. -/
theorem W2_main_v1 (c : Dev nD) : W2 m c (Proc.devRef .tc main_v1) = (dat1 (VB m) c).arrAt 4 cfg1.N := W2_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W1`, left at `W2`.  Its invariant starts as the plain one
    (`hin1`) and gives the plain one back after the last point (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
/-- The program is the run of the two regions. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer of every core at `W2`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame claim's post: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

/-- The run with the result array named: it ends at what the second region's write-backs leave, the arguments as
    launched. -/
theorem run_value : θ_run defs (onTc (τ := τ) (main (F := F))) ⟨m, fun _ => 0, ρ⟩ (fun r => ∀ c : Dev nD,
      r.2.mem ((c.tc : Thread nD τ).loc main_v1) = (dat1 (VB m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.KernelIdeal.Hand

end
-- ==== Proof.K.Body0.lean ====
/-
  The first kernel region: per-row scale of the weight matrix.

  The grid has 8 points; point t reads rows 512·t … 512·t+511 of the weight matrix (a block of 512 × 4096) and
  writes the block of 512 × 1 holding, for each of those rows, max (mean |w|, ε).  The body is one load of the
  input block, one pure function of it (`k0_pay1`), one whole store into the output block.  Stated here, at any
  instance of the float operations and for any contents `V` the region finds in the buffers: what the body leaves
  in the output block as a function of the input block, the body's triple, the pipeline's proof data and its
  body obligation.
-/
import proofs.«102023_j37434934952235_1_alg».proof.Proof.Gen.Kernel.Launch
import proofs.«102023_j37434934952235_1_alg».proof.Proof.Gen.Kernel.Skeleton
import proofs.«102023_j37434934952235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds the weight block of the point, for any proof data over `V` whose
    body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block as rectangles. -/
abbrev rW0 : Rect S512x4096 := Rect.unit (s := S512x4096) ![0, 0] S512x4096.size inb_S512x4096_S512x4096_0_0
abbrev rS0 : Rect S512x1 := Rect.unit (s := S512x1) ![0, 0] S512x1.size inb_S512x1_S512x1_0_0

/-- What the body leaves in the scale block: its one store, of the row scales of the weight block. -/
def scaleBlk (x0 : Vec F S512x4096 .f32) : Vec F S512x1 .f32 :=
  View.canon [⟨rS0, k0_pay1 (View.ld x0 rW0)⟩]

/-- The one store covers the block. -/
theorem scaleBlk_cover (p0 : Vec F S512x1 .f32) (y : S512x1.Idx) :
    ∃ pc ∈ ([⟨rS0, p0⟩] : List (View.Piece (Elt F) S512x1 .f32)), y ∈ pc.1.set :=
  View.cover_of_tiled [⟨rS0, p0⟩] S512x1.size (by rfl) y

set_option maxHeartbeats 1000000 in
/-- The body on whole staging buffers: the weight block read and kept, the scale block left at `scaleBlk`. -/
theorem sound_kernel0 (c : Dev nD) (E : Set ℕ) (i : grid0.Coords) (arg1 : Memref sig .tc .vmem S512x4096 .f32) (harg1 : arg1.IsWhole)
    (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (scaleBlk x0)) -∗ K ⟨⟩))
      ⊢ wp frame (wpE (defs₀ (F := F)) Variants.none c none) E (cc0__scale_kernel i arg1 harg1 arg2 harg2) K := by
  simp only [cc0__scale_kernel_eq_skeleton]; unfold cc0__scale_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (scaleBlk_cover _)

/-- The proof data of the first region on core `c`: the arrays as found; the weight block kept, the scale block at
    `scaleBlk` of the weight block; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => scaleBlk (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = scaleBlk (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second kernel region: the product with the ternary weights, a block of the contraction at a time.

  The grid is 16 × 8 × 4: point (i, j, k) reads block (i, k) of x (512 × 1024), block (j, k) of the weight matrix
  (512 × 1024), block j of the row scales (512 × 1) and of the bias (512), and owns block (i, j) of the result
  (512 × 512).  A scratch accumulator of 512 × 512 is carried along k: at k = 0 it is set to zero, at every k the
  block's partial product is added to it (`accStep`), and at k = 3 the accumulator plus the bias row is stored into
  the result block (`outBlk`), which is written back there and at no other point.  So the body has three control
  cases — first step, middle step, last step — and the result window is idle except in the last.

  Stated here, at any instance of the float operations and for any contents `V` the region finds: the three runs of
  the body, what the accumulator holds after each point (`accAt`, by recursion on the point), the invariant that
  carries it, the pipeline's proof data and its body obligation.
-/
import proofs.«102023_j37434934952235_1_alg».proof.Proof.Gen.Kernel.Launch
import proofs.«102023_j37434934952235_1_alg».proof.Proof.Gen.Kernel.Skeleton
import proofs.«102023_j37434934952235_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block of the point, fetched there or kept from an earlier point with
    the same block index, for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, from the grid coordinates -/

/-- "This is the first block of the contraction" (k = 0), as the body computes it. -/
abbrev cond1_0 (i : grid1.Coords) : Prop := (Scalar.cmpi .ne (Scalar.extui (Scalar.cmpi .eq (BitVec.ofNat 32 (i 2).val) 0#32)) 0#32) = 1#1
/-- It holds at the points ≡ 0 (mod 4): k is the fastest grid axis, of extent 4. -/
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block of the contraction" (k = 3). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The result window is idle away from the last block, live at it; never written back away from it. -/
theorem idle1_4 (t : Fin cfg1.N) (h : ¬cond1_1 (grid1.coords t)) : cfg1.idle 4 (grid1.coords t) = true := by
  show (!(k1_cond2 (grid1.coords t) == 1#1)) = true
  rw [Bool.not_eq_true', beq_eq_false_iff_ne]; exact h
theorem live1_4 (t : Fin cfg1.N) (h : cond1_1 (grid1.coords t)) : cfg1.idle 4 (grid1.coords t) = false := by
  show (!(k1_cond2 (grid1.coords t) == 1#1)) = false
  rw [Bool.not_eq_false', beq_iff_eq]; exact h
theorem noFlush1_4 (t : Fin cfg1.N) (h : ¬t.val % 4 = 3) : (cfg1.win 4).flush t = false := by
  cases hf : (cfg1.win 4).flush t
  · rfl
  · exact absurd ((flush1_4 t).mp hf) h

/-! ## The body's pure steps -/

/-- The zero block the accumulator is reset to. -/
def accZero : Vec F S512x512 .f32 := k1_pay1
/-- One accumulation step: the accumulator plus the product of the x block with the ternary weights of the weight
    block under the row scales. -/
def accStep (x0 : Vec F S512x1024 .f32) (x1 : Vec F S512x1024 .f32) (x2 : Vec F S512x1 .f32) (acc : Vec F S512x512 .f32) : Vec F S512x512 .f32 :=
  k1_pay2 x1 x2 x0 acc
/-- The result block: the accumulator plus the bias row on every row. -/
def outBlk (x3 : Vec F S512 .f32) (acc : Vec F S512x512 .f32) : Vec F S512x512 .f32 := k1_pay3 x3 acc

theorem zero2 : (![0, 0] : Fin 2 → ℕ) = fun _ => 0 := funext fun a => by fin_cases a <;> rfl
theorem zero1 : (![0] : Fin 1 → ℕ) = fun _ => 0 := funext fun a => by fin_cases a; rfl

/-! ## The body's three runs -/

set_option maxHeartbeats 4000000 in
/-- FIRST STEP (k = 0): the accumulator, whatever it held, ends at one step from zero; the result block is not touched. -/
theorem run1_first (c : Dev nD) (E : Set ℕ) (i : grid1.Coords)
    (arg3 : Memref sig .tc .vmem S512x1024 .f32) (harg3 : arg3.IsWhole) (arg4 : Memref sig .tc .vmem S512x1024 .f32) (harg4 : arg4.IsWhole)
    (arg5 : Memref sig .tc .vmem S512x1 .f32) (harg5 : arg5.IsWhole) (arg6 : Memref sig .tc .vmem S512 .f32) (harg6 : arg6.IsWhole)
    (arg7 : Memref sig .tc .vmem S512x512 .f32) (harg7 : arg7.IsWhole) (arg8 : Memref sig .tc .vmem S512x512 .f32) (harg8 : arg8.IsWhole)
    (hc0 : cond1_0 i) (hc1 : ¬cond1_1 i)
    (x0 : Vec F S512x1024 .f32) (x1 : Vec F S512x1024 .f32) (x2 : Vec F S512x1 .f32) (x3 : Vec F S512 .f32) (xi : Vec F S512x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare (accStep x0 x1 x2 accZero)) -∗ K ⟨⟩))
      ⊢ wp frame (wpE (defs₀ (F := F)) Variants.none c none) E (cc1__matmul_kernel i arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; exact hf4
  iexists _; isplitr; swap; · iexact H5
  ipureintro
  sl_unfold_words
  rw [View.read_writes_eq_canon _ _ _ (fun y => ⟨_, List.mem_cons_self, View.mem_set_unit_zero zero2 inb_S512x512_S512x512_0_0 y⟩),
    View.canon_cons_unit_zero (S := S512x512) zero2]
  simp only [View.readAt_eq_ld, harg3.read_unread, harg4.read_unread, harg5.read_unread, View.ld_unit_zero (S := S512x1024) zero2,
    View.ld_unit_zero (S := S512x1) zero2, View.readCov_unit_zero (S := S512x512) _ zero2, accStep, accZero]

set_option maxHeartbeats 4000000 in
/-- MIDDLE STEP (k = 1, 2): the accumulator advances one step; the result block is not touched. -/
theorem run1_mid (c : Dev nD) (E : Set ℕ) (i : grid1.Coords)
    (arg3 : Memref sig .tc .vmem S512x1024 .f32) (harg3 : arg3.IsWhole) (arg4 : Memref sig .tc .vmem S512x1024 .f32) (harg4 : arg4.IsWhole)
    (arg5 : Memref sig .tc .vmem S512x1 .f32) (harg5 : arg5.IsWhole) (arg6 : Memref sig .tc .vmem S512 .f32) (harg6 : arg6.IsWhole)
    (arg7 : Memref sig .tc .vmem S512x512 .f32) (harg7 : arg7.IsWhole) (arg8 : Memref sig .tc .vmem S512x512 .f32) (harg8 : arg8.IsWhole)
    (hc0 : ¬cond1_0 i) (hc1 : ¬cond1_1 i)
    (x0 : Vec F S512x1024 .f32) (x1 : Vec F S512x1024 .f32) (x2 : Vec F S512x1 .f32) (x3 : Vec F S512 .f32) (xi : Vec F S512x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare (accStep x0 x1 x2 xs)) -∗ K ⟨⟩))
      ⊢ wp frame (wpE (defs₀ (F := F)) Variants.none c none) E (cc1__matmul_kernel i arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; exact hf4
  iexists _; isplitr; swap; · iexact H5
  ipureintro
  sl_unfold_words
  rw [View.read_writes_eq_canon _ _ _ (fun y => ⟨_, List.mem_cons_self, View.mem_set_unit_zero zero2 inb_S512x512_S512x512_0_0 y⟩),
    View.canon_cons_unit_zero (S := S512x512) zero2]
  simp only [View.readAt_eq_ld, harg3.read_unread, harg4.read_unread, harg5.read_unread, hf5, View.ld_unit_zero (S := S512x1024) zero2,
    View.ld_unit_zero (S := S512x1) zero2, View.ld_unit_zero (S := S512x512) zero2, accStep]

set_option maxHeartbeats 4000000 in
/-- LAST STEP (k = 3): the accumulator advances one step, and the result block, whatever it held, ends at that
    accumulator plus the bias row. -/
theorem run1_last (c : Dev nD) (E : Set ℕ) (i : grid1.Coords)
    (arg3 : Memref sig .tc .vmem S512x1024 .f32) (harg3 : arg3.IsWhole) (arg4 : Memref sig .tc .vmem S512x1024 .f32) (harg4 : arg4.IsWhole)
    (arg5 : Memref sig .tc .vmem S512x1 .f32) (harg5 : arg5.IsWhole) (arg6 : Memref sig .tc .vmem S512 .f32) (harg6 : arg6.IsWhole)
    (arg7 : Memref sig .tc .vmem S512x512 .f32) (harg7 : arg7.IsWhole) (arg8 : Memref sig .tc .vmem S512x512 .f32) (harg8 : arg8.IsWhole)
    (hc0 : ¬cond1_0 i) (hc1 : cond1_1 i)
    (x0 : Vec F S512x1024 .f32) (x1 : Vec F S512x1024 .f32) (x2 : Vec F S512x1 .f32) (x3 : Vec F S512 .f32) (xi : Vec F S512x512 .f32) (xs : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (outBlk x3 (accStep x0 x1 x2 xs)) ∗ owns (c : Thread nD τ) arg8 fullShare (accStep x0 x1 x2 xs)) -∗ K ⟨⟩))
      ⊢ wp frame (wpE (defs₀ (F := F)) Variants.none c none) E (cc1__matmul_kernel i arg3 harg3 arg4 harg4 arg5 harg5 arg6 harg6 arg7 harg7 arg8 harg8) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    sl_unfold_words
    rw [View.read_writes_eq_canon _ _ _ (fun y => ⟨_, List.mem_cons_self, View.mem_set_unit_zero zero2 inb_S512x512_S512x512_0_0 y⟩),
      View.canon_cons_unit_zero (S := S512x512) zero2]
    simp only [View.readAt_eq_ld, harg3.read_unread, harg4.read_unread, harg5.read_unread, harg6.read_unread, hf5, View.ld_unit_zero (S := S512x1024) zero2,
      View.ld_unit_zero (S := S512x1) zero2, View.ld_unit_zero (S := S512x512) zero2, View.ld_unit_zero (S := S512) zero1,
      View.readCov_unit_zero (S := S512x512) _ zero2, accStep, outBlk]
  iexists _; isplitr; swap; · iexact H5
  ipureintro
  sl_unfold_words
  rw [View.read_writes_eq_canon _ _ _ (fun y => ⟨_, List.mem_cons_self, View.mem_set_unit_zero zero2 inb_S512x512_S512x512_0_0 y⟩),
    View.canon_cons_unit_zero (S := S512x512) zero2]
  simp only [View.readAt_eq_ld, harg3.read_unread, harg4.read_unread, harg5.read_unread, hf5, View.ld_unit_zero (S := S512x1024) zero2,
    View.ld_unit_zero (S := S512x1) zero2, View.ld_unit_zero (S := S512x512) zero2, accStep]

/-! ## The accumulator, point by point -/

/-- What the scratch accumulator holds after the body at position `n`: one step from zero at the first block of a
    contraction (positions ≡ 0 mod 4), else one step from what the position before left. -/
def accAt (c : Dev nD) : (n : ℕ) → n < cfg1.N → Vec F S512x512 .f32
  | 0, hn => accStep (iblk1 V c 0 ⟨0, hn⟩) (iblk1 V c 1 ⟨0, hn⟩) (iblk1 V c 2 ⟨0, hn⟩) accZero
  | n + 1, hn =>
    if (n + 1) % 4 = 0 then accStep (iblk1 V c 0 ⟨n + 1, hn⟩) (iblk1 V c 1 ⟨n + 1, hn⟩) (iblk1 V c 2 ⟨n + 1, hn⟩) accZero
    else accStep (iblk1 V c 0 ⟨n + 1, hn⟩) (iblk1 V c 1 ⟨n + 1, hn⟩) (iblk1 V c 2 ⟨n + 1, hn⟩) (accAt c n (Nat.lt_of_succ_lt hn))

/-- At the first block of a contraction the accumulator is one step from zero. -/
theorem accAt_first (c : Dev nD) (t : Fin cfg1.N) (h0 : t.val % 4 = 0) :
    accAt V c t.val t.isLt = accStep (iblk1 V c 0 t) (iblk1 V c 1 t) (iblk1 V c 2 t) accZero := by
  obtain ⟨n, hn⟩ := t
  cases n with
  | zero => rfl
  | succ n => exact if_pos h0

/-- At a later block it is one step from what the point before left. -/
theorem accAt_next (c : Dev nD) (t : Fin cfg1.N) (h0 : ¬t.val % 4 = 0) :
    accAt V c t.val t.isLt = accStep (iblk1 V c 0 t) (iblk1 V c 1 t) (iblk1 V c 2 t)
      (accAt V c (t.val - 1) (Nat.lt_of_le_of_lt (Nat.sub_le _ _) t.isLt)) := by
  obtain ⟨n, hn⟩ := t
  cases n with
  | zero => exact absurd (Nat.zero_mod _) h0
  | succ n => exact if_neg h0

/-- What the result window's staging buffer holds after the body at a last block: the accumulator plus the bias. -/
def outAt (c : Dev nD) (t : Fin cfg1.N) : Vec F S512x512 .f32 := outBlk (iblk1 V c 3 t) (accAt V c t.val t.isLt)

/-! ## The invariant that carries the accumulator -/

/-- The scratch accumulator as a memref. -/
abbrev scM1 : Memref sig .tc .vmem S512x512 .f32 := Memref.whole cc1_scratch0

/-- The core's scoped buffers that the second kernel does not stage — the first kernel's four staging buffers, each at
    some contents, and the accumulator as `S` says — and the generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ S) ∗ ∃ r, prngReg c r)

/-- The region's plain invariant is that with the accumulator at some contents. -/
theorem PhiA1_eq (c : Dev nD) :
    (Pipeline.ΦA spec1 c : sProp 𝕄) = PhiWith c iprop(∃ d, owns (c : Thread nD τ) scM1 fullShare d) := by
  unfold Pipeline.ΦA PhiWith; rw [scopedRest1_eq]; simp only [scM1, owns_whole]; try rfl

/-- The invariant before position `n`: the plain one before the first point, afterwards the accumulator at what the
    point before left. -/
def PhiS1 (c : Dev nD) : (n : ℕ) → n ≤ cfg1.N → sProp 𝕄
  | 0, _ => Pipeline.ΦA spec1 c
  | n + 1, hn => PhiWith c (owns (c : Thread nD τ) scM1 fullShare (accAt V c n hn))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1 fullShare (accAt V c n hn)) := rfl
theorem PhiS1_pos (c : Dev nD) (n : ℕ) (h : n ≤ cfg1.N) (hz : n ≠ 0) :
    PhiS1 V c n h = PhiWith c (owns (c : Thread nD τ) scM1 fullShare (accAt V c (n - 1) (by omega))) := by
  cases n with
  | zero => exact absurd rfl hz
  | succ n => rfl

/-! ## The pipeline's proof data -/

/-- The proof data of the second region on core `c`: the arrays as found; every input block kept; the result block at
    `outAt`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4_live (c : Dev nD) (t : Fin cfg1.N) (h : cond1_1 (grid1.coords t)) :
    (dat1 V c).leavesExact 4 t = owns (c : Thread nD τ) (st1_4 t) fullShare (outAt V c t) := by
  unfold Dat.leavesExact; rw [live1_4 t h, after1_4]

set_option maxHeartbeats 4000000 in
/-- The body at any point: the inputs' buffers hold their blocks; the point's residue mod 4 says which of the three
    runs applies; the invariant hands the body the accumulator at what the point before left (at anything at the first
    point of all) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 512 := lt_of_lt_of_eq t.isLt (show cfg1.N = 512 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idle1_4 t hc1) (noFlush1_4 t h1), accAt_first V c t h0]
    have hpre : (dat1 V c).Φ t.castSucc ⊢ PhiWith c iprop(∃ d, owns (c : Thread nD τ) scM1 fullShare d) := by
      rw [PhiS1_castSucc V c t]
      by_cases hz : t.val = 0
      · rw [PhiS1_zero V c _ _ hz, PhiA1_eq]
      · rw [PhiS1_pos V c _ _ hz]; unfold PhiWith
        iintro ⟨⟨Ha, Hb, Hc, Hd, HS⟩, Hg⟩
        isplitr [Hg]
        · isplitl [Ha]; · iexact Ha
          isplitl [Hb]; · iexact Hb
          isplitl [Hc]; · iexact Hc
          isplitl [Hd]; · iexact Hd
          iexists _; iexact HS
        iexact Hg
    refine (sep_mono hpre .rfl).trans ?_
    unfold PhiWith
    iintro ⟨⟨⟨Ha, Hb, Hc, Hd, ⟨%ds, HS⟩⟩, Hg⟩, Ho, ⟨%d0, H0⟩, ⟨%d1, H1⟩, ⟨%d2, H2⟩, ⟨%d3, H3⟩, ⟨%d4, H4⟩⟩
    iapply (run1_first c Set.univ (grid1.coords t) _ _ _ _ _ _ _ _ _ _ _ _ hc0 hc1 (iblk1 V c 0 t) (iblk1 V c 1 t) (iblk1 V c 2 t) (iblk1 V c 3 t) _ ds _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [Ha Hb Hc Hd HS Hg]
    · isplitr [Hg]
      · isplitl [Ha]; · iexact Ha
        isplitl [Hb]; · iexact Hb
        isplitl [Hc]; · iexact Hc
        isplitl [Hd]; · iexact Hd
        iexact HS
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    have hz : t.val ≠ 0 := fun h => h0 (by rw [h])
    rw [PhiS1_castSucc V c t, PhiS1_pos V c _ _ hz, accAt_next V c t h0]
    unfold PhiWith
    by_cases h1 : t.val % 4 = 3
    · have hc1 : cond1_1 (grid1.coords t) := (hcond1_1 t).mpr h1
      rw [leaves1_4_live V c t hc1]
      unfold outAt; rw [accAt_next V c t h0]
      iintro ⟨⟨⟨Ha, Hb, Hc, Hd, HS⟩, Hg⟩, Ho, ⟨%d0, H0⟩, ⟨%d1, H1⟩, ⟨%d2, H2⟩, ⟨%d3, H3⟩, ⟨%d4, H4⟩⟩
      iapply (run1_last c Set.univ (grid1.coords t) _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Ha Hb Hc Hd HS Hg]
      · isplitr [Hg]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4 t hc1) (noFlush1_4 t h1)]
      iintro ⟨⟨⟨Ha, Hb, Hc, Hd, HS⟩, Hg⟩, Ho, ⟨%d0, H0⟩, ⟨%d1, H1⟩, ⟨%d2, H2⟩, ⟨%d3, H3⟩, ⟨%d4, H4⟩⟩
      iapply (run1_mid c Set.univ (grid1.coords t) _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Ha Hb Hc Hd HS Hg]
      · isplitr [Hg]
        · isplitl [Ha]; · iexact Ha
          isplitl [Hb]; · iexact Hb
          isplitl [Hc]; · iexact Hc
          isplitl [Hd]; · iexact Hd
          iexact HS
        iexact Hg
      isplitl [Ho]; · iexact Ho
      isplitl [H0]; · iexact H0
      isplitl [H1]; · iexact H1
      isplitl [H2]; · iexact H2
      isplitl [H3]; · iexact H3
      iexists _; iexact H4

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the plain one back: the accumulator's contents are forgotten. -/
theorem hout1 (c : Dev nD) : (dat1 V c).Φ (Fin.last cfg1.N) ⊢ Pipeline.ΦA spec1 c := by
  have hN : cfg1.N = 512 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  unfold PhiWith
  iintro ⟨⟨Ha, Hb, Hc, Hd, HS⟩, Hg⟩
  isplitr [Hg]
  · isplitl [Ha]; · iexact Ha
    isplitl [Hb]; · iexact Hb
    isplitl [Hc]; · iexact Hc
    isplitl [Hd]; · iexact Hd
    iexists _; iexact HS
  iexact Hg

end Cert.Kernel.Hand

end
-- ==== Proof.K.Run.lean ====
/-
  The whole program's run: the two kernel regions one after the other, from the launch to the return.

  Between the regions each core holds every unscoped buffer whole: the launch contents at first; after the first
  region the same with the row-scale array at what that region's write-backs leave; after the second region the
  same with the result array at what its write-backs leave.  Each region is entered from the state before it and left
  at the state after it: its arrays are split out of the unscoped buffers and put back at their final contents, the
  generator register goes into the region's invariant and comes back, nothing is owed, the kernels have no semaphore
  of their own.  The run's post reads every unscoped buffer of the final memory against the last contents.
-/
import proofs.«102023_j37434934952235_1_alg».proof.Proof.K.Body0
import proofs.«102023_j37434934952235_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch (the first region's entry). -/
abbrev W0 : Dev nD → Valuation τ sig (Elt F) := fun c b => m ((c : Dev nD), b)
/-- The same read at the TensorCore's references. -/
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (the second region's entry). -/
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ### What the last contents are, buffer by buffer -/

/-- The weight matrix is an input of both regions: it ends as launched. -/
theorem W1_main_arg1 (c : Dev nD) : W1 m c (Proc.devRef .tc main_arg1) = m ((c : Thread nD τ).loc main_arg1) :=
  (W1_arr m c 0).trans (((dat0 (VA m) c).arrAt_in 0 rfl _).trans (A_eq0 (VA m) c 0))
theorem W1_main_arg0 (c : Dev nD) : W1 m c (Proc.devRef .tc main_arg0) = m ((c : Thread nD τ).loc main_arg0) :=
  W1_of_ne m c main_arg0 (by decide)
theorem W1_main_arg2 (c : Dev nD) : W1 m c (Proc.devRef .tc main_arg2) = m ((c : Thread nD τ).loc main_arg2) :=
  W1_of_ne m c main_arg2 (by decide)
/-- The row scales as the second region finds them: what the first region's write-backs left. -/
theorem W1_main_v0 (c : Dev nD) : W1 m c (Proc.devRef .tc main_v0) = (dat0 (VA m) c).arrAt 1 cfg0.N := W1_arr m c 1

theorem W2_main_arg0 (c : Dev nD) : W2 m c (Proc.devRef .tc main_arg0) = m ((c : Thread nD τ).loc main_arg0) :=
  ((W2_arr m c 0).trans (((dat1 (VB m) c).arrAt_in 0 rfl _).trans (A_eq1 (VB m) c 0))).trans (W1_main_arg0 m c)
theorem W2_main_arg1 (c : Dev nD) : W2 m c (Proc.devRef .tc main_arg1) = m ((c : Thread nD τ).loc main_arg1) :=
  ((W2_arr m c 1).trans (((dat1 (VB m) c).arrAt_in 1 rfl _).trans (A_eq1 (VB m) c 1))).trans (W1_main_arg1 m c)
theorem W2_main_arg2 (c : Dev nD) : W2 m c (Proc.devRef .tc main_arg2) = m ((c : Thread nD τ).loc main_arg2) :=
  ((W2_arr m c 3).trans (((dat1 (VB m) c).arrAt_in 3 rfl _).trans (A_eq1 (VB m) c 3))).trans (W1_main_arg2 m c)
/-- The result array at the end: what the second region's write-backs left. -/
theorem W2_main_v1 (c : Dev nD) : W2 m c (Proc.devRef .tc main_v1) = (dat1 (VB m) c).arrAt 4 cfg1.N := W2_arr m c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W1`, left at `W2`.  Its invariant starts as the plain one
    (`hin1`) and gives the plain one back after the last point (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VB m) c)
    unfold Pipeline.ΦA
    iintro ⟨Hp, -, Hr⟩
    isplitl [Hr]; · iexact Hr
    iexact Hp
  hout c := by
    rw [Pipeline.ownSems0_none]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
/-- The program is the run of the two regions. -/
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer of every core at `W2`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame claim's post: the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

/-- The run with the result array named: it ends at what the second region's write-backs leave, the arguments as
    launched. -/
theorem run_value : θ_run defs (onTc (τ := τ) (main (F := F))) ⟨m, fun _ => 0, ρ⟩ (fun r => ∀ c : Dev nD,
      r.2.mem ((c.tc : Thread nD τ).loc main_v1) = (dat1 (VB m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.Kernel.Hand

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«102023_j37434934952235_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«102023_j37434934952235_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibBlockedRowsDot.lean ====
/-
  A product with the rows of a matrix, `x · wᵀ`, taken a block of columns at a time.

  For `x : [a, K]` and `w : [N, K]`, entry `(r, q)` of `x · wᵀ` is the sum over the `K` columns of
  `x (r, k) * w (q, k)` (`prodRowT`). When `K = T * B`, cut the columns into `T` consecutive blocks of `B`:

  * `blkCol kt j` is column `j` of block `kt` as a column of the whole, number `j + B * kt`;
  * `sum_eq_sum_blocks`: a sum over all columns is the sum over the blocks of the sums inside each block, in any
    commutative monoid, so on the extended reals without any finiteness;
  * `blockDot kt` is block `kt`'s part of the entry, `prodRowT_eq_sum_blockDot` the entry as the sum of the parts,
    and `prodRowT_eq_blockDot` recognises a part in the product of two `B`-column matrices that are slices of `x`
    and `w` (of any heights: only one row of each is read);
  * `partialDot k` is the sum of the parts of blocks `0 … k`: what an accumulator that starts from the first block's
    part (`partialDot_zero`) and grows by one block per step (`partialDot_succ`) holds after step `k`, and after the
    last block the whole entry (`partialDot_last`).

  All are generic in the extents.
-/
import Mathlib.Algebra.BigOperators.Fin
import Mathlib.Data.Fintype.BigOperators
import Mathlib.Logic.Equiv.Fin.Basic
import proofs.«102023_j37434934952235_1_alg».proof.Proof.LibRowsDot

noncomputable section

namespace Cert.BlockedRows

open Idealize.ShloMosaic Idealize.ShloMosaic.ValueIdx
open Cert.DenseLayer (Mat)
open Cert.DenseRows (prodRowT)

section Blocks

variable {T B K : ℕ} (hK : T * B = K)

/-- Column `j` of block `kt`, as a column of the whole: number `j + B * kt`. -/
def blkCol (kt : Fin T) (j : Fin B) : Fin K := Fin.cast hK (finProdFinEquiv (kt, j))

theorem blkCol_val (kt : Fin T) (j : Fin B) : (blkCol hK kt j).val = j.val + B * kt.val := rfl

/-- A sum over all the columns is the sum over the blocks of the sums inside each block. -/
theorem sum_eq_sum_blocks {M : Type} [AddCommMonoid M] (f : Fin K → M) :
    ∑ i : Fin K, f i = ∑ kt : Fin T, ∑ j : Fin B, f (blkCol hK kt j) := by
  subst hK
  have h := (Equiv.sum_comp (finProdFinEquiv (m := T) (n := B)) f).symm
  rw [h, Fintype.sum_prod_type]
  rfl

variable {a N : ℕ}

/-- The part of entry `(r, q)` of `x · wᵀ` that block `kt` of the columns contributes. -/
def blockDot (x : Mat a K) (w : Mat N K) (r : Fin a) (q : Fin N) (kt : Fin T) : EReal :=
  ∑ j : Fin B, x (ix2 r (blkCol hK kt j)) * w (ix2 q (blkCol hK kt j))

/-- The whole contraction is the sum of the blocks' parts. -/
theorem prodRowT_eq_sum_blockDot (x : Mat a K) (w : Mat N K) (r : Fin a) (q : Fin N) :
    prodRowT x w r q = ∑ kt : Fin T, blockDot hK x w r q kt :=
  sum_eq_sum_blocks hK fun k => x (ix2 r k) * w (ix2 q k)

/-- A product of two `B`-column matrices whose rows `p` and `s` are block `kt` of rows `r` of `x` and `q` of `w`
    is that block's part. -/
theorem prodRowT_eq_blockDot {a' N' : ℕ} (xb : Mat a' B) (wb : Mat N' B) (x : Mat a K) (w : Mat N K)
    (p : Fin a') (s : Fin N') (r : Fin a) (q : Fin N) (kt : Fin T)
    (hx : ∀ j, xb (ix2 p j) = x (ix2 r (blkCol hK kt j))) (hw : ∀ j, wb (ix2 s j) = w (ix2 q (blkCol hK kt j))) :
    prodRowT xb wb p s = blockDot hK x w r q kt :=
  Finset.sum_congr rfl fun j _ => by rw [hx j, hw j]

/-- Block number `kt`'s part when `kt` is a block, zero past the last block. -/
def blockDotN (x : Mat a K) (w : Mat N K) (r : Fin a) (q : Fin N) (kt : ℕ) : EReal :=
  if h : kt < T then blockDot hK x w r q ⟨kt, h⟩ else 0

theorem blockDotN_of_lt (x : Mat a K) (w : Mat N K) (r : Fin a) (q : Fin N) (kt : ℕ) (h : kt < T) :
    blockDotN hK x w r q kt = blockDot hK x w r q ⟨kt, h⟩ := dif_pos h

/-- The sum of the parts of blocks `0 … k`: what an accumulator holds after step `k`. -/
def partialDot (x : Mat a K) (w : Mat N K) (r : Fin a) (q : Fin N) (k : ℕ) : EReal :=
  ∑ kt ∈ Finset.range (k + 1), blockDotN hK x w r q kt

theorem partialDot_zero (x : Mat a K) (w : Mat N K) (r : Fin a) (q : Fin N) (h : 0 < T) :
    partialDot hK x w r q 0 = blockDot hK x w r q ⟨0, h⟩ := by
  unfold partialDot
  rw [Finset.sum_range_one, blockDotN_of_lt hK x w r q 0 h]

theorem partialDot_succ (x : Mat a K) (w : Mat N K) (r : Fin a) (q : Fin N) (k : ℕ) (h : k + 1 < T) :
    partialDot hK x w r q (k + 1) = partialDot hK x w r q k + blockDot hK x w r q ⟨k + 1, h⟩ := by
  unfold partialDot
  rw [Finset.sum_range_succ _ (k + 1), blockDotN_of_lt hK x w r q (k + 1) h]

/-- After the last block the accumulator holds the whole contraction. -/
theorem partialDot_last (x : Mat a K) (w : Mat N K) (r : Fin a) (q : Fin N) (k : ℕ) (h : k + 1 = T) :
    partialDot hK x w r q k = prodRowT x w r q := by
  unfold partialDot
  rw [prodRowT_eq_sum_blockDot hK, h, Finset.sum_range]
  exact Finset.sum_congr rfl fun kt _ => blockDotN_of_lt hK x w r q kt.val kt.isLt

end Blocks

end Cert.BlockedRows

end
-- ==== Proof.Spec.lean ====
/-
  What the two programs compute, as plain functions on the extended reals.

  For a weight matrix w : [N, K], the row scale of row n is  max ((Σ_k |w n k|) / 4096, ε)  (the divisor and ε are
  the float words the programs spell).  The ternary weight of an entry v under a row scale s is 1 when
  s · 0.75 ≤ v, else −1 when v ≤ −(s · 0.75), else 0; the effective weight is that times the row scale.  The
  result is  x · w_effᵀ + bias:  entry (r, n) is  Σ_k x r k · w_eff n k  plus bias n.

  The second kernel reads the row scales from an array (a column [N, 1]); `outWith` is the result as a function
  of that array too, and `out` instantiates it at the true row scales.  The reference spells the ternary weight
  through a straight-through blend,  w · m + (q − w · m)  with m = 1 when |w| ≤ 1 else 0, which is q whenever w is a
  real number (`blend_eq`); so on real weights the reference's effective weight is `wEff` (`wEffBlend_eq`).
-/
import Idealize.ShloMosaic.PureOps.Ideal
import Idealize.ShloMosaic.PureOps.Ideal.Laws
import Idealize.ShloMosaic.Lib.ValueIdx
import proofs.«102023_j37434934952235_1_alg».proof.Proof.LibBlockedRowsDot

noncomputable section

namespace Cert.Spec

open Idealize.ShloMosaic Idealize.ShloMosaic.ValueIdx
open Cert.DenseLayer (Mat)
open Cert.DenseRows (prodRowT)

/-- A vector of extended reals. -/
abbrev Row (n : ℕ) : Type := (⟨1, ![n]⟩ : Shape).Idx → EReal

/-- The float words the programs spell, at their exact values. -/
def c4096 : EReal := Ideal.ofBits .f32 0x45800000#32
def cEps : EReal := Ideal.ofBits .f32 0x358637BD#32
def c075 : EReal := Ideal.ofBits .f32 0x3F400000#32
def cOne : EReal := Ideal.ofBits .f32 0x3F800000#32
def cNegOne : EReal := Ideal.ofBits .f32 0xBF800000#32
def cZero : EReal := Ideal.ofBits .f32 0x00000000#32

/-- The absolute value on the extended reals. -/
def absE (v : EReal) : EReal := max v (-v)

variable {a N K : ℕ}

/-- The row scale: the mean of the row's absolute values (sum over 4096), at least ε. -/
def rowScale (w : Mat N K) (n : Fin N) : EReal :=
  max (Ideal.div (∑ k : Fin K, absE (w (ix2 n k))) c4096) cEps

/-- The row scales as a column. -/
def scaleCol (w : Mat N K) : Mat N 1 := fun i => rowScale w (i 0)

/-- The ternary weight of an entry `v` under the row scale `s`. -/
def tern (s v : EReal) : EReal :=
  if s * c075 ≤ v then cOne else if v ≤ -(s * c075) then cNegOne else cZero

/-- The effective weights from a column of row scales. -/
def wEffWith (w : Mat N K) (s : Mat N 1) : Mat N K :=
  fun i => tern (s (ix2 (i 0) 0)) (w i) * s (ix2 (i 0) 0)

/-- The result from a column of row scales: x · w_effᵀ + bias. -/
def outWith (x : Mat a K) (w : Mat N K) (s : Mat N 1) (b : Row N) : Mat a N :=
  fun i => prodRowT x (wEffWith w s) (i 0) (i 1) + b (ix1 (i 1))

/-- The effective weights and the result at the true row scales. -/
def wEff (w : Mat N K) : Mat N K := wEffWith w (scaleCol w)
def out (x : Mat a K) (w : Mat N K) (b : Row N) : Mat a N := outWith x w (scaleCol w) b

/-- The straight-through mask: 1 where |v| ≤ 1, else 0. -/
def steMask (v : EReal) : EReal := if absE v ≤ cOne then 1 else 0

/-- The reference's spelling of the effective weights, through the straight-through blend. -/
def wEffBlend (w : Mat N K) : Mat N K :=
  fun i => (w i * steMask (w i) + (tern (rowScale w (i 0)) (w i) - w i * steMask (w i))) * rowScale w (i 0)

/-- The reference's spelling of the result. -/
def outBlend (x : Mat a K) (w : Mat N K) (b : Row N) : Mat a N :=
  fun i => prodRowT x (wEffBlend w) (i 0) (i 1) + b (ix1 (i 1))

end Cert.Spec

end
-- ==== Proof.Algebra.lean ====
/-
  The straight-through blend is the ternary weight on real weights.

  On the extended reals  a + (q − a) = q  holds when a and q are real numbers (it fails at the infinities, where
  ∞ − ∞ is not 0).  The three float words a ternary weight can be denote the reals 1, −1 and 0, so the ternary
  weight of any entry under any row scale is a real number; the straight-through mask is 0 or 1, so a real weight
  times its mask is a real number.  Hence the reference's spelling  w · m + (q − w · m)  of the ternary weight is
  q itself whenever w is real, its effective weights are `wEff`, and its result is `out`.
-/
import proofs.«102023_j37434934952235_1_alg».proof.Proof.Spec
import Mathlib.Data.EReal.Basic
import Mathlib.Data.EReal.Operations

noncomputable section

namespace Cert.Spec

open Idealize.ShloMosaic Idealize.ShloMosaic.ValueIdx
open Cert.DenseLayer (Mat)
open Cert.DenseRows (prodRowT)

/-! ## The three words are real numbers -/

/-- The word `1.0` denotes the real number 1. -/
theorem cOne_eq : cOne = ((1 : ℝ) : EReal) := by
  unfold cOne
  simp [Ideal.ofBits, Ideal.ieee, -EReal.coe_mul]
  norm_num

/-- The word `-1.0` denotes the real number −1. -/
theorem cNegOne_eq : cNegOne = ((-1 : ℝ) : EReal) := by
  unfold cNegOne
  simp [Ideal.ofBits, Ideal.ieee, -EReal.coe_mul]
  norm_num

/-- The word `+0.0` denotes the real number 0. -/
theorem cZero_eq : cZero = ((0 : ℝ) : EReal) := by
  unfold cZero
  rw [Ideal.ofBits_zero_f32, EReal.coe_zero]

/-! ## The ternary weight and the mask are real numbers -/

/-- The ternary weight is one of the three words, so it is a real number whatever the scale and the entry. -/
theorem tern_real (s v : EReal) : ∃ q : ℝ, tern s v = (q : EReal) := by
  unfold tern
  split_ifs
  · exact ⟨1, cOne_eq⟩
  · exact ⟨-1, cNegOne_eq⟩
  · exact ⟨0, cZero_eq⟩

/-- The straight-through mask is 0 or 1, a real number. -/
theorem steMask_real (v : EReal) : ∃ m : ℝ, steMask v = (m : EReal) := by
  unfold steMask
  split_ifs
  · exact ⟨1, EReal.coe_one.symm⟩
  · exact ⟨0, EReal.coe_zero.symm⟩

/-! ## The blend -/

/-- On real numbers, adding back what was subtracted gives the minuend:  a + (q − a) = q. -/
theorem blend_eq (a q : ℝ) : (a : EReal) + ((q : EReal) - (a : EReal)) = (q : EReal) := by
  rw [← EReal.coe_sub, ← EReal.coe_add, add_sub_cancel]

/-- The reference's spelling of the ternary weight of a real entry is the ternary weight. -/
theorem blend_tern (s v : EReal) (hv : ∃ r : ℝ, v = (r : EReal)) :
    v * steMask v + (tern s v - v * steMask v) = tern s v := by
  obtain ⟨r, hr⟩ := hv
  obtain ⟨m, hm⟩ := steMask_real v
  obtain ⟨q, hq⟩ := tern_real s v
  rw [hm, hq, hr, ← EReal.coe_mul]
  exact blend_eq (r * m) q

/-! ## The effective weights and the result -/

/-- On real weights the reference's effective weights are the effective weights at the true row scales. -/
theorem wEffBlend_eq {N K : ℕ} (w : Mat N K) (hw : ∀ i, ∃ r : ℝ, w i = (r : EReal)) : wEffBlend w = wEff w := by
  funext i
  unfold wEffBlend wEff wEffWith scaleCol
  rw [blend_tern _ _ (hw i)]
  rfl

/-- On real weights the reference's result is the result at the true row scales. -/
theorem outBlend_eq {a N K : ℕ} (x : Mat a K) (w : Mat N K) (b : Row N) (hw : ∀ i, ∃ r : ℝ, w i = (r : EReal)) :
    outBlend x w b = out x w b := by
  funext i
  unfold outBlend out outWith
  rw [wEffBlend_eq w hw]
  rfl

end Cert.Spec

end
-- ==== Proof.Finite.lean ====
/-
  FINITENESS OF THE WEIGHTS, READ BACK FROM THE PRECONDITION.

  The precondition compares, entry by entry, the absolute value of each float input with the word
  0x7F800000 (the f32 pattern of +∞), takes the conjunction over every entry of each input, and
  joins the three conjunctions. Over the extended reals the absolute value of `v` is `max v (-v)`
  and the word denotes `⊤`; an extended real with `max v (-v) < ⊤` is neither `⊤` nor `⊥`
  (for `⊥` the negation is `⊤`), so it is a real number. This file states that for the second
  input (the weight matrix).
-/
import proofs.«102023_j37434934952235_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- The f32 word 0x7F800000 denotes `⊤`. -/
theorem inf_word : Ideal.ofBits .f32 0x7F800000#32 = (⊤ : EReal) := by
  simp [Ideal.ofBits, Ideal.ieee]

/-- An extended real whose absolute value `max v (-v)` is strictly below `⊤` is a real number:
    at `⊤` the maximum is `⊤` itself, at `⊥` its negation is `⊤`. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- One entry of the comparison `|x| < +∞` that came out true: the entry of `x` is a real number. -/
theorem real_of_cmp {s : Shape} (hb : Cert.Pre_finite_inputs.S_.BroadcastsInDim s (![] : Fin 0 → Fin s.rank))
    (x : FVec Ideal s .f32) (i : s.Idx)
    (e : cmpf .olt (Host.absf x)
        (broadcastInDim s ![] hb (constant (F := Ideal) Cert.Pre_finite_inputs.S_ .f32 0x7F800000#32)) i = 1#1) :
    ∃ r : ℝ, x i = (r : EReal) := by
  have e' : Ideal.cmp .olt (max (x i) (-(x i))) (Ideal.ofBits .f32 0x7F800000#32) = 1#1 := e
  rw [inf_word] at e'
  refine real_of_abs_lt_top (x i) ?_
  by_contra hn
  simp [Ideal.cmp, hn] at e'

/-- The precondition's middle conjunct, entry by entry: every entry of the weight matrix is a real number. -/
theorem weights_real [Cert.Pre_finite_inputs.Facts] (a0 : FVec Ideal Cert.Pre_finite_inputs.S8192x4096 .f32)
    (a1 : FVec Ideal Cert.Pre_finite_inputs.S4096x4096 .f32) (a2 : FVec Ideal Cert.Pre_finite_inputs.S4096 .f32)
    (h : Cert.Pre_finite_inputs.fn (F := Ideal) a0 a1 a2 = fun _ => 1#1) : ∀ i, ∃ r : ℝ, a1 i = (r : EReal) := by
  intro i
  have h0 := congrFun h ValueIdx.ix0
  dsimp only [Cert.Pre_finite_inputs.fn] at h0
  have h1 := (IntOp.andi_eq_one.1 h0).1
  have h2 := (IntOp.andi_eq_one.1 h1).2
  haveI : Subsingleton Cert.Pre_finite_inputs.S_.Idx := ⟨fun a b => funext fun d => d.elim0⟩
  exact real_of_cmp _ a1 i (Host.reduce_andi_all _ _ _ _ _ h2 i)

end Cert.Finite

end
-- ==== Proof.Parts.lean ====
/-
  The five claims from their parts.

  The three frames: the two kernel programs run through their two regions and leave the arguments as launched; the
  reference is a straight line of host operations.  The idealization rewrote nothing.  For the value claim both runs
  end with the result array at `Spec.out` of the argument arrays: the kernel program's second region leaves
  `Spec.outWith` of x, the weights, the row-scale array and the bias, and the row-scale array is what the first region
  left, `Spec.scaleCol` of the weights; the reference leaves `Spec.outBlend`, which is `Spec.out` because the
  precondition makes every weight a real number.  The three facts about values enter as hypotheses here.
-/
import proofs.«102023_j37434934952235_1_alg».proof.Defs
import proofs.«102023_j37434934952235_1_alg».proof.Proof.Gen.Kernel
import proofs.«102023_j37434934952235_1_alg».proof.Proof.Gen.KernelIdeal
import proofs.«102023_j37434934952235_1_alg».proof.Proof.Gen.ReferenceIdeal
import proofs.«102023_j37434934952235_1_alg».proof.Proof.Gen.Pre_finite_inputs
import proofs.«102023_j37434934952235_1_alg».proof.Proof.Gen.ReferenceIdeal.Run
import proofs.«102023_j37434934952235_1_alg».proof.Proof.Gen.ReferenceIdeal.Read
import proofs.«102023_j37434934952235_1_alg».proof.Proof.KI.Run
import proofs.«102023_j37434934952235_1_alg».proof.Proof.K.Run
import proofs.«102023_j37434934952235_1_alg».proof.Proof.Spec
import proofs.«102023_j37434934952235_1_alg».proof.Proof.Algebra
import proofs.«102023_j37434934952235_1_alg».proof.Proof.Finite

set_option maxRecDepth 16384

noncomputable section

namespace Cert.Proof.Parts

open Idealize.ShloMosaic Idealize.ShloMosaic.TcCoe Idealize.SL.Sem
open Cert.DenseLayer (Mat)

theorem frame_k : Cert.frame_Kernel := fun m ρ _ => Cert.Kernel.Hand.frame m ρ
theorem frame_ki : Cert.frame_KernelIdeal := fun m ρ _ => Cert.KernelIdeal.Hand.frame m ρ
theorem frame_r : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

section Kernel
open Cert.KernelIdeal Cert.KernelIdeal.Gen Cert.KernelIdeal.Hand

/-- The first region leaves the row scales of the weights in the row-scale array. -/
abbrev ScaleFact : Prop := ∀ (V : (c : Dev nD) → (b : Ref sig .tc) → Buf (Elt Ideal) ((c : Thread nD τ).loc b)) (c : Dev nD),
  (dat0 (F := Ideal) V c).arrAt 1 cfg0.N = Cert.Spec.scaleCol (V c main_arg1)
/-- The second region leaves the product with the effective weights, plus the bias, in the result array. -/
abbrev OutFact : Prop := ∀ (V : (c : Dev nD) → (b : Ref sig .tc) → Buf (Elt Ideal) ((c : Thread nD τ).loc b)) (c : Dev nD),
  (dat1 (F := Ideal) V c).arrAt 4 cfg1.N = Cert.Spec.outWith (V c main_arg0) (V c main_arg1) (V c main_v0) (V c main_arg2)

/-- The kernel program's result array at the end, as a function of the launch memory's arguments. -/
theorem kernel_value (hv0 : ScaleFact) (hv1 : OutFact) (m : (ℓ : Loc nD τ sig) → Buf (Elt Ideal) ℓ) (c : Dev nD) :
    (dat1 (F := Ideal) (VB m) c).arrAt 4 cfg1.N
      = Cert.Spec.out (m ((c.tc : Thread nD τ).loc main_arg0)) (m ((c.tc : Thread nD τ).loc main_arg1)) (m ((c.tc : Thread nD τ).loc main_arg2)) := by
  have e0 : VB m c main_arg0 = m ((c.tc : Thread nD τ).loc main_arg0) := W1_main_arg0 m c
  have e1 : VB m c main_arg1 = m ((c.tc : Thread nD τ).loc main_arg1) := W1_main_arg1 m c
  have e2 : VB m c main_arg2 = m ((c.tc : Thread nD τ).loc main_arg2) := W1_main_arg2 m c
  have e3 : VB m c main_v0 = Cert.Spec.scaleCol (m ((c.tc : Thread nD τ).loc main_arg1)) := (W1_main_v0 m c).trans (hv0 (VA m) c)
  rw [hv1 (VB m) c, e0, e1, e2, e3]
  rfl

end Kernel

section Reference
open Cert.ReferenceIdeal Cert.ReferenceIdeal.Gen

/-- The reference's result, read operation by operation, is the blend form of the specification. -/
abbrev RefFact : Prop := ∀ (x0 : (⟨S8192x4096, .f32⟩ : BufTy).Contents (Elt Ideal)) (x1 : (⟨S4096x4096, .f32⟩ : BufTy).Contents (Elt Ideal))
    (x2 : (⟨S4096, .f32⟩ : BufTy).Contents (Elt Ideal)), Cert.ReferenceIdeal.Read.val_main_v31 (F := Ideal) x0 x1 x2 = Cert.Spec.outBlend x0 x1 x2

end Reference

/-- The value claim: both runs end with the result at `Spec.out` of the arguments. -/
theorem algebraic (hv0 : ScaleFact) (hv1 : OutFact) (href : RefFact) : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_value hv0 hv1 m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    have hw : ∀ i, ∃ r : ℝ, m' ((c.tc : Thread Cert.ReferenceIdeal.nD Cert.ReferenceIdeal.τ).loc Cert.ReferenceIdeal.main_arg1) i = (r : EReal) := by
      rw [(hagree c).2.1]; exact Cert.Finite.weights_real _ _ _ (hpre c)
    refine (Cert.ReferenceIdeal.Read.val_main_v31_eq _ _ _).trans ((href _ _ _).trans ((Cert.Spec.outBlend_eq _ _ _ hw).trans ?_))
    rw [(hagree c).1, (hagree c).2.1, (hagree c).2.2]

end Cert.Proof.Parts

end
-- ==== Proof.KI.Value0.lean ====
/-
  The first kernel region, read: after it the scale array holds the row scales of the weight matrix.

  The region's grid has 8 points. Point t reads rows 512·t … 512·t + 511 of the weight matrix w : [4096, 4096] (a block
  [512, 4096]) and writes back into block t of the scale array [4096, 1] (a block [512, 1]), for each of its rows p, the value
  max ((Σ_k |w (512·t + p) k|) / 4096, ε): the absolute values, their sum along the row from the zero word, the column of
  sums [512] set as [512, 1], divided by the broadcast word 4096 and kept at least the broadcast word ε.

  Steps: the payload at a row of its block (`pay_apply`); what the body leaves in the scale block is that payload
  (`scaleBlk_eq`); the payload of a block holding rows n·512 … of a matrix is the row scale at the row the index names in the
  whole column (`pay_block`); both index maps send point t to block (t, 0) (`idx_facts`); so point t writes back block t of
  `Spec.scaleCol` of the weight matrix (`flushed_eq`); row r lies in the block of point r / 512 and every point writes back
  (`mem_blk`, `cover`); hence the whole array (`scale_final`).
-/
import proofs.«102023_j37434934952235_1_alg».proof.Proof.KI.Body0
import proofs.«102023_j37434934952235_1_alg».proof.Proof.Spec
import proofs.«102023_j37434934952235_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The payload of the first region, read at row `p` of its block: the row's absolute values summed, divided by the
    word 4096, and kept at least ε. -/
theorem pay_apply (x0 : Vec Ideal S512x4096 .f32) (p : Fin 512) :
    k0_pay1 (F := Ideal) x0 (ix2 p (0 : Fin 1))
      = max (Ideal.div (∑ k : Fin 4096, Cert.Spec.absE (x0 (ix2 p k))) Cert.Spec.c4096) Cert.Spec.cEps := by
  unfold k0_pay1
  dsimp only
  rw [maximumf_apply, divf_apply, broadcast_apply, broadcast_apply]
  refine congrArg₂ max (congrArg₂ Ideal.div ?_ rfl) rfl
  refine (Cert.ColumnLayout.shapeCast_a_a1_apply _ _ p 0).trans ?_
  refine (Cert.ColumnLayout.multiReduction_add_rows_apply (a := 512) (b := 4096) _ _ _ _ _ p).trans ?_
  rfl

theorem hz : (![0, 0] : Fin 2 → ℕ) = fun _ => 0 := funext fun a => by fin_cases a <;> rfl

/-- What the body leaves in the scale block is the payload of the weight block. -/
theorem scaleBlk_eq (x0 : Vec Ideal S512x4096 .f32) : scaleBlk x0 = k0_pay1 (F := Ideal) x0 := by
  unfold scaleBlk
  rw [View.canon_unit_zero hz, View.ld_unit_zero (S := S512x4096) hz]

/-- The payload of a block that holds rows `n·512 …` of a matrix `W`, at an index of the block, is the row scale of `W`
    at the row that index names in the whole column. -/
theorem pay_block (W : Cert.DenseLayer.Mat 4096 4096) (x0 : Vec Ideal S512x4096 .f32) (y : S512x1.Idx) (i : S4096x1.Idx) (n : ℕ)
    (hx : ∀ (x : S512x4096.Idx) (k : S4096x4096.Idx), (k 0).val = n * 512 + (x 0).val → (k 1).val = (x 1).val → x0 x = W k)
    (hi : (i 0).val = n * 512 + (y 0).val) :
    k0_pay1 (F := Ideal) x0 y = Cert.Spec.scaleCol W i := by
  obtain ⟨p, q, rfl⟩ : ∃ (p : Fin 512) (q : Fin 1), y = ix2 p q := ⟨y 0, y 1, eq_ix2 y⟩
  obtain rfl : q = 0 := Subsingleton.elim _ _
  rw [pay_apply]
  unfold Cert.Spec.scaleCol Cert.Spec.rowScale
  refine congrArg₂ max (congrArg₂ Ideal.div (Finset.sum_congr rfl fun k _ => congrArg Cert.Spec.absE ?_) rfl) rfl
  exact hx _ _ hi rfl

/-- The index maps of the two windows, decided over the grid: point `t` reads and writes block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the column of row scales of the weight matrix. -/
theorem flushed_eq (c : Dev nD) (t : Fin cfg0.N) :
    (dat0 (F := Ideal) V c).flushed 1 t
      = ((cfg0.win 1).blk t).view.read (Elt Ideal) (Cert.Spec.scaleCol (V c main_arg1)) := by
  show (cfg0.win 1).cut (grid0.coords t) ((dat0 V c).after 1 t) = _
  rw [after0_1, scaleBlk_eq]
  obtain ⟨e00, e01, e10, e11⟩ := idx_facts t
  funext j
  show k0_pay1 (F := Ideal) (iblk0 V c 0 t) ((cfg0.win 1).xinj (grid0.coords t) j)
    = Cert.Spec.scaleCol (V c main_arg1) (((cfg0.win 1).blk t).view.emb j)
  refine pay_block (V c main_arg1) (iblk0 V c 0 t) _ _ t.val (fun x k hk0 hk1 => ?_) ?_
  · show V c main_arg1 (((cfg0.win 0).blk t).view.emb x) = V c main_arg1 k
    refine congrArg _ (funext fun a => Fin.ext ?_)
    match a with
    | ⟨0, _⟩ => show win0_0.index t (0 : Fin 2) * 512 + 1 * (x 0).val = (k 0).val; rw [e00, hk0]; omega
    | ⟨1, _⟩ => show win0_0.index t (1 : Fin 2) * 4096 + 1 * (x 1).val = (k 1).val; rw [e01, hk1]; omega
  · show win0_1.index t (0 : Fin 2) * 512 + 1 * (j 0).val = t.val * 512 + (j 0).val
    rw [e10]; omega

/-- An index of the column is in point `t`'s block iff each coordinate is in the block's range on its axis. -/
theorem mem_blk (t : Fin cfg0.N) (i : S4096x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Row `r` of the column lies in the block of point `r / 512`, and every point writes its block back. -/
theorem cover (i : S4096x1.Idx) : ∃ t : Fin cfg0.N, (cfg0.win 1).flush t = true ∧ i ∈ ((cfg0.win 1).blk t).view.set := by
  have h0 : (i 0).val < 4096 := (i 0).isLt
  have h1 : (i 1).val < 1 := (i 1).isLt
  have hN : grid0.N = 8 := N_0
  have ht : (i 0).val / 512 < grid0.N := by rw [hN]; omega
  obtain ⟨e00, e01, e10, e11⟩ := idx_facts ⟨(i 0).val / 512, ht⟩
  refine ⟨⟨(i 0).val / 512, ht⟩, flush0_1 _, ?_⟩
  rw [mem_blk]
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    rw [e10]; show (i 0).val / 512 * 512 ≤ (i 0).val ∧ (i 0).val < (i 0).val / 512 * 512 + 512; omega
  | ⟨1, _⟩ =>
    show win0_1.index ⟨(i 0).val / 512, ht⟩ (1 : Fin 2) * 1 ≤ (i 1).val ∧ (i 1).val < win0_1.index ⟨(i 0).val / 512, ht⟩ (1 : Fin 2) * 1 + 1
    rw [e11]; omega

/-- After the first region the scale array holds the row scales of the weight matrix. -/
theorem scale_final (c : Dev nD) :
    (dat0 (F := Ideal) V c).arrAt 1 cfg0.N = Cert.Spec.scaleCol (V c main_arg1) :=
  (dat0 V c).arrAt_eq_of_cover 1 (Cert.Spec.scaleCol (V c main_arg1)) (fun t _ => flushed_eq V c t) cover

end Cert.KernelIdeal.Value0

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«102023_j37434934952235_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«102023_j37434934952235_1_alg».proof.Proof.LibRowsDot
import proofs.«102023_j37434934952235_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.KI.Step1.lean ====
/-
  The second kernel's pure steps, read at an index of the 512 × 512 block, at the ideal values.

  The zero block is 0 everywhere.  One accumulation step adds to the accumulator's entry (p, q) the product of row p
  of the x block with row q of the effective weights of the weight block under the block of row scales
  (`Spec.wEffWith`): the body's compare-and-select chain is the ternary weight, the product of two [512, 1024]
  blocks along their second axes into a zero accumulator is `prodRowT`.  The result block adds the bias entry q.
-/
import proofs.«102023_j37434934952235_1_alg».proof.Proof.KI.Body1
import proofs.«102023_j37434934952235_1_alg».proof.Proof.Spec
import proofs.«102023_j37434934952235_1_alg».proof.Proof.LibRowsDims
import proofs.«102023_j37434934952235_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Step1

open Idealize.ShloMosaic Idealize.ShloMosaic.ValueIdx
open Cert.KernelIdeal Cert.KernelIdeal.Gen Cert.KernelIdeal.Hand
open Cert.DenseLayer (Mat)
open Cert.DenseRows (prodRowT)

/-- `arith.select` on a decided bit is the conditional. -/
theorem select_ofBool {α : Type} (c : Prop) [Decidable c] (a b : α) :
    Scalar.select (BitVec.ofBool (decide c)) a b = if c then a else b := by
  by_cases h : c <;> simp [Scalar.select, h]

/-- The block of effective weights as the body spells it: the threshold column is the scale column times 0.75; an
    entry at or above its row's threshold maps to 1, else one at or below minus the threshold to −1, else to 0; the
    result is multiplied by the row's scale (and its format changed, which is the identity at the ideal values). -/
def wBlk (v3 : Vec Ideal S512x1024 .f32) (v4 : Vec Ideal S512x1 .f32) : FVec Ideal S512x1024 .bf16 :=
  have v5 : FVec Ideal S512x1 .f32 := shapeCast S512x1 v4 shapeCasts_S512x1_S512x1
  have cst : Ideal .f32 := Scalar.ofBits .f32 0x3F400000#32
  have v6 : FVec Ideal S512x1 .f32 := broadcast S512x1 cst
  have v7 : FVec Ideal S512x1 .f32 := mulf v5 v6
  have v8 : FVec Ideal S512x1024 .f32 := broadcastTo S512x1024 v7 broadcasts_S512x1_S512x1024
  have v9 : IVec S512x1024 1 := cmpf .oge v3 v8
  have cst_4 : Ideal .f32 := Scalar.ofBits .f32 0x00000000#32
  have v10 : FVec Ideal S512x1 .f32 := broadcast S512x1 cst_4
  have v11 : FVec Ideal S512x1 .f32 := subf v10 v7
  have v12 : FVec Ideal S512x1024 .f32 := broadcastTo S512x1024 v11 broadcasts_S512x1_S512x1024
  have v13 : IVec S512x1024 1 := cmpf .ole v3 v12
  have cst_5 : Ideal .f32 := Scalar.ofBits .f32 0xBF800000#32
  have cst_6 : Ideal .f32 := Scalar.ofBits .f32 0x00000000#32
  have v14 : FVec Ideal S512x1024 .f32 := broadcast S512x1024 cst_5
  have v15 : FVec Ideal S512x1024 .f32 := broadcast S512x1024 cst_6
  have v16 : FVec Ideal S512x1024 .f32 := select v13 v14 v15
  have cst_7 : Ideal .f32 := Scalar.ofBits .f32 0x3F800000#32
  have v17 : FVec Ideal S512x1024 .f32 := broadcast S512x1024 cst_7
  have v18 : FVec Ideal S512x1024 .f32 := select v9 v17 v16
  have v19 : FVec Ideal S512x1024 .f32 := broadcastTo S512x1024 v5 broadcasts_S512x1_S512x1024
  have v20 : FVec Ideal S512x1024 .f32 := mulf v18 v19
  truncf .bf16 v20 bitsLt_bf16_f32

/-- One step is the accumulator plus the product of the x block with that block of weights into the zero block. -/
theorem accStep_eq (x0 : Vec Ideal S512x1024 .f32) (x1 : Vec Ideal S512x1024 .f32) (x2 : Vec Ideal S512x1 .f32)
    (acc : Vec Ideal S512x512 .f32) :
    accStep (F := Ideal) x0 x1 x2 acc =
      shapeCast S512x512 (addf acc (matmul dot_S512x1024_S512x1024_S512x512_1_1_0_0_n_n none
        (truncf .bf16 x0 bitsLt_bf16_f32) (wBlk x1 x2) (constant (F := Ideal) S512x512 .f32 0x00000000#32)))
        shapeCasts_S512x512_S512x512 := rfl

/-- The body's block of weights at entry (q, j) is the effective weight there. -/
theorem wBlk_apply (x1 : Vec Ideal S512x1024 .f32) (x2 : Vec Ideal S512x1 .f32) (q : Fin 512) (j : Fin 1024) :
    wBlk x1 x2 (ix2 q j) = Cert.Spec.wEffWith x1 x2 (ix2 q j) := by
  unfold wBlk
  simp only [truncf_apply, mulf_apply, select_apply, cmpf_apply, broadcast_apply, subf_apply, shapeCast_self,
    Cert.ColumnLayout.broadcastTo_a1_ab_apply]
  show _ = Cert.Spec.tern (x2 (ix2 q 0)) (x1 (ix2 q j)) * x2 (ix2 q 0)
  unfold Cert.Spec.tern Cert.Spec.cOne Cert.Spec.cNegOne Cert.Spec.cZero Cert.Spec.c075
  simp only [Ideal.cmpf_def, Ideal.cmp, Ideal.ofBits_def, select_ofBool, Ideal.ofBits_zero_f32, zero_sub]

/-- The zero block is zero at every entry. -/
theorem accZero_apply (p q : Fin 512) : accZero (F := Ideal) (ix2 p q) = 0 := by
  show shapeCast S512x512 (broadcast S512x512 (Scalar.ofBits (F := Ideal) .f32 0x00000000#32))
    shapeCasts_S512x512_S512x512 (ix2 p q) = 0
  rw [shapeCast_self]
  exact Ideal.ofBits_zero_f32

/-- One accumulation step at entry (p, q). -/
theorem accStep_apply (x0 : Vec Ideal S512x1024 .f32) (x1 : Vec Ideal S512x1024 .f32) (x2 : Vec Ideal S512x1 .f32)
    (acc : Vec Ideal S512x512 .f32) (p q : Fin 512) :
    accStep (F := Ideal) x0 x1 x2 acc (ix2 p q) = acc (ix2 p q) + prodRowT x0 (Cert.Spec.wEffWith x1 x2) p q := by
  rw [accStep_eq, shapeCast_self, addf_apply]
  refine congrArg (acc (ix2 p q) + ·) ?_
  refine (Cert.DenseRows.matmul_zero_rows_apply (Cert.DenseRows.rowsDot_of_axes _ rfl rfl rfl rfl rfl rfl) none _ _ (ix2 p q)).trans ?_
  exact Cert.DenseRows.prodRowT_congr _ _ _ _ p p q q (fun k => rfl) (fun k => wBlk_apply x1 x2 q k)

/-- The result block at entry (p, q): the accumulator plus the bias entry of column q. -/
theorem outBlk_apply (x3 : Vec Ideal S512 .f32) (acc : Vec Ideal S512x512 .f32) (p q : Fin 512) :
    outBlk (F := Ideal) x3 acc (ix2 p q) = acc (ix2 p q) + x3 (ix1 q) := by
  show acc (ix2 p q) + broadcastTo S512x512 (shapeCast S1x512 (shapeCast S1x512 x3 shapeCasts_S512_S1x512) shapeCasts_S1x512_S1x512)
    broadcasts_S1x512_S512x512 (ix2 p q) = _
  refine congrArg (acc (ix2 p q) + ·) ?_
  refine (broadcastTo_1b_ab_apply _ _ p q).trans ?_
  rw [shapeCast_self]
  exact shapeCast_a_1a_apply x3 _ 0 q

end Cert.KernelIdeal.Step1

end
-- ==== Proof.KI.Value1.lean ====
/-
  The second kernel region's result array, read as one function of the arrays the region finds.

  The grid is 16 × 8 × 4; point t has coordinates i = t / 32, j = (t / 4) % 8, k = t % 4.  At point t the body reads
  block (i, k) of x (rows 512·i …, columns 1024·k …), block (j, k) of the weights, block j of the row scales and of
  the bias, and owns block (i, j) of the result.  Cut the 4096 columns of the contraction into 4 blocks of 1024.  The
  accumulator after point t holds, at entry (p, q), the sum of the parts that column blocks 0 … k contribute to entry
  (512·i + p, 512·j + q) of x · w_effᵀ, where w_eff are the effective weights under the row scales found: the first
  point of a contraction leaves block 0's part (zero plus it), every later point adds its own block's part, because
  the effective weights of a weight block under its block of row scales are the block of the effective weights (a
  row's scale is read at the same row).  After the last block (k = 3) the accumulator holds the whole entry, the result
  block is that plus the bias entry, and it is written back there; the 16 × 8 result blocks tile the array, so the
  array ends holding x · w_effᵀ + bias.
-/
import proofs.«102023_j37434934952235_1_alg».proof.Proof.KI.Step1

set_option maxRecDepth 16384

noncomputable section

namespace Cert.KernelIdeal.Value1

open Idealize.ShloMosaic Idealize.ShloMosaic.ValueIdx Idealize.ShloMosaic.TcCoe
open Idealize.ShloMosaic.Pipeline (Dat)
open Cert.KernelIdeal Cert.KernelIdeal.Gen Cert.KernelIdeal.Hand Cert.KernelIdeal.Step1
open Cert.DenseLayer (Mat)
open Cert.DenseRows (prodRowT)
open Cert.BlockedRows
open Cert.Spec (Row wEffWith outWith)

variable (V : (c : Dev nD) → (b : Ref sig .tc) → Buf (Elt Ideal) ((c : Thread nD τ).loc b))

/-! ## The arrays and the blocks, at their literal types -/

/-- The four arrays the region reads, as it finds them. -/
abbrev xarr (c : Dev nD) : Mat 8192 4096 := V c main_arg0
abbrev warr (c : Dev nD) : Mat 4096 4096 := V c main_arg1
abbrev sarr (c : Dev nD) : Mat 4096 1 := V c main_v0
abbrev barr (c : Dev nD) : Row 4096 := V c main_arg2
/-- Their blocks at a grid point. -/
abbrev xblk (c : Dev nD) (t : Fin cfg1.N) : Mat 512 1024 := iblk1 V c 0 t
abbrev wblk (c : Dev nD) (t : Fin cfg1.N) : Mat 512 1024 := iblk1 V c 1 t
abbrev sblk (c : Dev nD) (t : Fin cfg1.N) : Mat 512 1 := iblk1 V c 2 t
abbrev bblk (c : Dev nD) (t : Fin cfg1.N) : Row 512 := iblk1 V c 3 t

/-- The contraction's 4096 columns are 4 blocks of 1024. -/
theorem hK : 4 * 1024 = 4096 := by norm_num

/-! ## The index maps over the grid -/

/-- Point `t` of the 16 × 8 × 4 grid has coordinates (t / 32, (t / 4) % 8, t % 4); each window's block index is the
    pair of coordinates its index map names. -/
theorem idx_facts : ∀ t : Fin cfg1.N,
    win1_0.index t (0 : Fin 2) = t.val / 32 ∧ win1_0.index t (1 : Fin 2) = t.val % 4
  ∧ win1_1.index t (0 : Fin 2) = (t.val / 4) % 8 ∧ win1_1.index t (1 : Fin 2) = t.val % 4
  ∧ win1_2.index t (0 : Fin 2) = (t.val / 4) % 8 ∧ win1_2.index t (1 : Fin 2) = 0
  ∧ win1_3.index t (0 : Fin 1) = (t.val / 4) % 8
  ∧ win1_4.index t (0 : Fin 2) = t.val / 32 ∧ win1_4.index t (1 : Fin 2) = (t.val / 4) % 8 :=
  (by decide +kernel : ∀ t : Fin grid1.N, _)

/-! ## The blocks' entries, read off the arrays -/

/-- Entry (p, j) of the x block at `t` is entry (512 · (t / 32) + p, column j of block t % 4) of x. -/
theorem xblk_apply (c : Dev nD) (t : Fin cfg1.N) (p : Fin 512) (j : Fin 1024) (r : Fin 8192) (kt : Fin 4)
    (hr : r.val = 512 * (t.val / 32) + p.val) (hk : kt.val = t.val % 4) :
    xblk V c t (ix2 p j) = xarr V c (ix2 r (blkCol hK kt j)) := by
  obtain ⟨e0, e1, -⟩ := idx_facts t
  show V c main_arg0 (((cfg1.win 0).blk t).view.emb (ix2 p j)) = V c main_arg0 (ix2 r (blkCol hK kt j))
  refine congrArg (V c main_arg0) (funext fun a => Fin.ext ?_)
  match a with
  | ⟨0, _⟩ => show win1_0.index t (0 : Fin 2) * 512 + 1 * p.val = r.val; omega
  | ⟨1, _⟩ => show win1_0.index t (1 : Fin 2) * 1024 + 1 * j.val = j.val + 1024 * kt.val; omega

/-- Entry (q, j) of the weight block at `t` is entry (512 · ((t / 4) % 8) + q, column j of block t % 4) of the weights. -/
theorem wblk_apply (c : Dev nD) (t : Fin cfg1.N) (q : Fin 512) (j : Fin 1024) (s : Fin 4096) (kt : Fin 4)
    (hs : s.val = 512 * ((t.val / 4) % 8) + q.val) (hk : kt.val = t.val % 4) :
    wblk V c t (ix2 q j) = warr V c (ix2 s (blkCol hK kt j)) := by
  obtain ⟨-, -, e0, e1, -⟩ := idx_facts t
  show V c main_arg1 (((cfg1.win 1).blk t).view.emb (ix2 q j)) = V c main_arg1 (ix2 s (blkCol hK kt j))
  refine congrArg (V c main_arg1) (funext fun a => Fin.ext ?_)
  match a with
  | ⟨0, _⟩ => show win1_1.index t (0 : Fin 2) * 512 + 1 * q.val = s.val; omega
  | ⟨1, _⟩ => show win1_1.index t (1 : Fin 2) * 1024 + 1 * j.val = j.val + 1024 * kt.val; omega

/-- Entry q of the block of row scales at `t` is the scale of row 512 · ((t / 4) % 8) + q. -/
theorem sblk_apply (c : Dev nD) (t : Fin cfg1.N) (q : Fin 512) (s : Fin 4096)
    (hs : s.val = 512 * ((t.val / 4) % 8) + q.val) :
    sblk V c t (ix2 q 0) = sarr V c (ix2 s 0) := by
  obtain ⟨-, -, -, -, e0, e1, -⟩ := idx_facts t
  show V c main_v0 (((cfg1.win 2).blk t).view.emb (ix2 q 0)) = V c main_v0 (ix2 s 0)
  refine congrArg (V c main_v0) (funext fun a => Fin.ext ?_)
  match a with
  | ⟨0, _⟩ => show win1_2.index t (0 : Fin 2) * 512 + 1 * q.val = s.val; omega
  | ⟨1, _⟩ => show win1_2.index t (1 : Fin 2) * 1 + 1 * 0 = 0; omega

/-- Entry q of the bias block at `t` is the bias of column 512 · ((t / 4) % 8) + q. -/
theorem bblk_apply (c : Dev nD) (t : Fin cfg1.N) (q : Fin 512) (s : Fin 4096)
    (hs : s.val = 512 * ((t.val / 4) % 8) + q.val) :
    bblk V c t (ix1 q) = barr V c (ix1 s) := by
  obtain ⟨-, -, -, -, -, -, e0, -⟩ := idx_facts t
  show V c main_arg2 (((cfg1.win 3).blk t).view.emb (ix1 q)) = V c main_arg2 (ix1 s)
  refine congrArg (V c main_arg2) (funext fun a => Fin.ext ?_)
  match a with
  | ⟨0, _⟩ => show win1_3.index t (0 : Fin 1) * 512 + 1 * q.val = s.val; omega

/-! ## One step's product is one block's part of the contraction -/

/-- The effective weights of the weight block under the block of row scales are the block of the effective weights:
    the scale of a row is read at the same row on both sides. -/
theorem wEff_blk_apply (c : Dev nD) (t : Fin cfg1.N) (q : Fin 512) (j : Fin 1024) (s : Fin 4096) (kt : Fin 4)
    (hs : s.val = 512 * ((t.val / 4) % 8) + q.val) (hk : kt.val = t.val % 4) :
    wEffWith (wblk V c t) (sblk V c t) (ix2 q j) = wEffWith (warr V c) (sarr V c) (ix2 s (blkCol hK kt j)) := by
  show Cert.Spec.tern (sblk V c t (ix2 q 0)) (wblk V c t (ix2 q j)) * sblk V c t (ix2 q 0)
    = Cert.Spec.tern (sarr V c (ix2 s 0)) (warr V c (ix2 s (blkCol hK kt j))) * sarr V c (ix2 s 0)
  rw [sblk_apply V c t q s hs, wblk_apply V c t q j s kt hs hk]

/-- The product of row p of the x block with row q of the block's effective weights is block t % 4's part of entry
    (512 · (t / 32) + p, 512 · ((t / 4) % 8) + q) of the whole product. -/
theorem step_eq_blockDot (c : Dev nD) (t : Fin cfg1.N) (p q : Fin 512) (r : Fin 8192) (s : Fin 4096) (kt : Fin 4)
    (hr : r.val = 512 * (t.val / 32) + p.val) (hs : s.val = 512 * ((t.val / 4) % 8) + q.val) (hk : kt.val = t.val % 4) :
    prodRowT (xblk V c t) (wEffWith (wblk V c t) (sblk V c t)) p q
      = blockDot hK (xarr V c) (wEffWith (warr V c) (sarr V c)) r s kt :=
  prodRowT_eq_blockDot hK (xblk V c t) (wEffWith (wblk V c t) (sblk V c t)) (xarr V c) (wEffWith (warr V c) (sarr V c))
    p q r s kt (fun j => xblk_apply V c t p j r kt hr hk) (fun j => wEff_blk_apply V c t q j s kt hs hk)

/-! ## The accumulator, entry by entry -/

/-- After point n = 32 · i + 4 · j + k the accumulator's entry (p, q) is the sum of the parts of column blocks 0 … k of
    entry (512 · i + p, 512 · j + q) of x · w_effᵀ: one block's part after the first point of a contraction, one more
    part after each later point. -/
theorem acc_inv (c : Dev nD) : ∀ (n : ℕ) (hn : n < cfg1.N) (p q : Fin 512) (r : Fin 8192) (s : Fin 4096),
    r.val = 512 * (n / 32) + p.val → s.val = 512 * ((n / 4) % 8) + q.val →
    accAt V c n hn (ix2 p q) = partialDot hK (xarr V c) (wEffWith (warr V c) (sarr V c)) r s (n % 4) := by
  intro n
  induction n using Nat.strong_induction_on with
  | _ n ih =>
    intro hn p q r s hr hs
    by_cases h0 : n % 4 = 0
    · refine (congrFun (accAt_first V c ⟨n, hn⟩ h0) (ix2 p q)).trans ?_
      refine (accStep_apply (xblk V c ⟨n, hn⟩) (wblk V c ⟨n, hn⟩) (sblk V c ⟨n, hn⟩) accZero p q).trans ?_
      rw [accZero_apply, zero_add, step_eq_blockDot V c ⟨n, hn⟩ p q r s ⟨0, by norm_num⟩ hr hs h0.symm, h0]
      exact (partialDot_zero hK (xarr V c) (wEffWith (warr V c) (sarr V c)) r s (by norm_num)).symm
    · refine (congrFun (accAt_next V c ⟨n, hn⟩ h0) (ix2 p q)).trans ?_
      refine (accStep_apply (xblk V c ⟨n, hn⟩) (wblk V c ⟨n, hn⟩) (sblk V c ⟨n, hn⟩)
        (accAt V c (n - 1) (Nat.lt_of_le_of_lt (Nat.sub_le _ _) hn)) p q).trans ?_
      obtain ⟨k, hk⟩ : ∃ k, n % 4 = k + 1 := ⟨n % 4 - 1, by omega⟩
      have hk' : (n - 1) % 4 = k := by omega
      rw [ih (n - 1) (by omega) _ p q r s (by omega) (by omega), hk', hk,
        step_eq_blockDot V c ⟨n, hn⟩ p q r s ⟨k + 1, by omega⟩ hr hs hk.symm]
      exact (partialDot_succ hK (xarr V c) (wEffWith (warr V c) (sarr V c)) r s k (by omega)).symm

/-! ## What a last point writes back -/

/-- At a last point of a contraction (t % 4 = 3) the result block's entry (p, q) is entry (512 · (t / 32) + p,
    512 · ((t / 4) % 8) + q) of x · w_effᵀ + bias. -/
theorem outAt_apply (c : Dev nD) (t : Fin cfg1.N) (hf : t.val % 4 = 3) (p q : Fin 512) (r : Fin 8192) (s : Fin 4096)
    (hr : r.val = 512 * (t.val / 32) + p.val) (hs : s.val = 512 * ((t.val / 4) % 8) + q.val) :
    outAt V c t (ix2 p q) = outWith (xarr V c) (warr V c) (sarr V c) (barr V c) (ix2 r s) := by
  refine (outBlk_apply (bblk V c t) (accAt V c t.val t.isLt) p q).trans ?_
  rw [acc_inv V c t.val t.isLt p q r s hr hs, hf,
    partialDot_last hK (xarr V c) (wEffWith (warr V c) (sarr V c)) r s 3 rfl, bblk_apply V c t q s hs]
  rfl

/-- What a last point writes back is its block of x · w_effᵀ + bias. -/
theorem flushed_eq (c : Dev nD) (t : Fin cfg1.N) (hf : t.val % 4 = 3) :
    (dat1 V c).flushed 4 t
      = ((cfg1.win 4).blk t).view.read (Elt Ideal) (outWith (xarr V c) (warr V c) (sarr V c) (barr V c)) := by
  have hN : cfg1.N = 512 := N_1
  have ht : t.val < 512 := lt_of_lt_of_eq t.isLt hN
  obtain ⟨-, -, -, -, -, -, -, e0, e1⟩ := idx_facts t
  show (cfg1.win 4).cut (grid1.coords t) ((dat1 V c).after 4 t) = _
  rw [after1_4]
  funext j
  obtain ⟨p, q, rfl⟩ : ∃ (p q : Fin 512), j = ix2 p q := ⟨j 0, j 1, eq_ix2 j⟩
  have hemb : ((cfg1.win 4).blk t).view.emb (ix2 p q)
      = ix2 (⟨512 * (t.val / 32) + p.val, by omega⟩ : Fin 8192) (⟨512 * ((t.val / 4) % 8) + q.val, by omega⟩ : Fin 4096) := by
    funext a; apply Fin.ext
    match a with
    | ⟨0, _⟩ => show win1_4.index t (0 : Fin 2) * 512 + 1 * p.val = 512 * (t.val / 32) + p.val; omega
    | ⟨1, _⟩ => show win1_4.index t (1 : Fin 2) * 512 + 1 * q.val = 512 * ((t.val / 4) % 8) + q.val; omega
  show outAt V c t (ix2 p q)
    = outWith (xarr V c) (warr V c) (sarr V c) (barr V c) (((cfg1.win 4).blk t).view.emb (ix2 p q))
  rw [hemb]
  exact outAt_apply V c t hf p q _ _ rfl rfl

/-! ## The result blocks tile the array -/

/-- An entry of the result is in the block of point `t` iff each coordinate is in the block's range on its axis. -/
theorem mem_blk (t : Fin cfg1.N) (i : S8192x4096.Idx) :
    i ∈ ((cfg1.win 4).blk t).view.set
      ↔ ∀ a : Fin 2, win1_4.index t a * S512x512.size a ≤ (i a).val
          ∧ (i a).val < win1_4.index t a * S512x512.size a + S512x512.size a := by
  show i ∈ ((View.whole main_v1).slice (win1_4.rect t)).set ↔ _
  rw [View.set_slice_whole, Rect.mem_set_unit]
  exact Iff.rfl

/-- Entry (r, n) of the result is in the block that the last point of the contraction of block (r / 512, n / 512)
    writes back. -/
theorem cover (i : S8192x4096.Idx) :
    ∃ t : Fin cfg1.N, (cfg1.win 4).flush t = true ∧ i ∈ ((cfg1.win 4).blk t).view.set := by
  have hN : cfg1.N = 512 := N_1
  have hi0 : (i 0).val < 8192 := (i 0).isLt
  have hi1 : (i 1).val < 4096 := (i 1).isLt
  obtain ⟨t, ht⟩ : ∃ t : Fin cfg1.N, t.val = ((i 0).val / 512 * 8 + (i 1).val / 512) * 4 + 3 :=
    ⟨⟨((i 0).val / 512 * 8 + (i 1).val / 512) * 4 + 3, by rw [hN]; omega⟩, rfl⟩
  obtain ⟨-, -, -, -, -, -, -, e0, e1⟩ := idx_facts t
  refine ⟨t, (flush1_4 t).mpr (by omega), ?_⟩
  rw [mem_blk]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 512 ≤ (i 1).val ∧ (i 1).val < win1_4.index t (1 : Fin 2) * 512 + 512
    omega

/-! ## The result array after the region -/

/-- After the second region the result array holds x · w_effᵀ + bias of the arrays the region found, the effective
    weights taken under the row scales it found. -/
theorem out_final (c : Dev nD) :
    (dat1 (F := Ideal) V c).arrAt 4 cfg1.N
      = Cert.Spec.outWith (V c main_arg0 : Mat 8192 4096) (V c main_arg1 : Mat 4096 4096) (V c main_v0 : Mat 4096 1)
          (V c main_arg2 : Row 4096) :=
  (dat1 V c).arrAt_eq_of_cover 4 (outWith (xarr V c) (warr V c) (sarr V c) (barr V c))
    (fun t hf => flushed_eq V c t ((flush1_4 t).mp hf)) cover

end Cert.KernelIdeal.Value1

end
-- ==== Proof.RefValue.lean ====
/-
  The reference's result, read operation by operation, is `Spec.outBlend` of the argument arrays.

  The reference forms, for a weight matrix w : [4096, 4096], the column of row scales
  s n = max ((Σ_k |w n k|) / 4096, ε), the threshold column s n · 0.75, the ternary weight q (1 where the entry is at
  least the row's threshold, else −1 where it is at most minus the threshold, else 0), the mask m (1 where |w| ≤ 1, else
  0, a one-bit comparison read as an unsigned integer), the blend (w · m + (q − w · m)) · s, its transpose, the
  contraction of x's second axis with the transposed matrix's first, and the bias laid over the rows.  Each step is read
  at one entry: the scale column (`scale_at`), the threshold column (`thr_at`), the ternary weight (`tern_at`), the mask
  (`mask_at`), the blend (`blend_at`); the transpose swaps the two coordinates, so the contraction's sum at (r, n) runs
  over x (r, k) times the blend at (n, k), which is `prodRowT` (`dot_at`); the bias at (r, n) is the bias at n
  (`bias_at`).
-/
import proofs.«102023_j37434934952235_1_alg».proof.Proof.Gen.ReferenceIdeal.Run
import proofs.«102023_j37434934952235_1_alg».proof.Proof.Gen.ReferenceIdeal.Read
import proofs.«102023_j37434934952235_1_alg».proof.Proof.Spec

noncomputable section

namespace Cert.RefValue

open Idealize.ShloMosaic Idealize.ShloMosaic.ValueIdx
open Cert.ReferenceIdeal Cert.ReferenceIdeal.Read
open Cert.Spec
open Cert.DenseLayer (Mat)
open Cert.DenseRows (prodRowT)

/-- A select on the bit of a decided proposition is the `if` on that proposition. -/
theorem select_ofBool {α : Type} (p : Prop) [Decidable p] (a b : α) :
    Scalar.select (BitVec.ofBool (decide p)) a b = if p then a else b := by
  by_cases h : p <;> simp [Scalar.select, h]

/-- The bit of a decided proposition, read as an unsigned integer at the ideal values, is 1 or 0. -/
theorem uitofp_ofBool (p : Prop) [Decidable p] :
    (FloatOps.uitofp (F := Ideal) .f32 (BitVec.ofBool (decide p)) : EReal) = if p then 1 else 0 := by
  by_cases h : p <;> simp [h, FloatOps.uitofp]

/-- The scale column at row `n`: the sum of the row's absolute values from a zero initial value, divided by the word
    4096, at least the word ε. -/
theorem scale_at (w : (⟨S4096x4096, .f32⟩ : BufTy).Contents (Elt Ideal)) (n : Fin 4096) (z : Fin 1) :
    val_main_v6 (F := Ideal) w (ix2 n z) = rowScale w n := by
  rw [val_main_v6_apply, val_main_v4_apply, val_main_v2_apply, val_main_v1_apply, val_main_v3_apply,
    val_main_v5_apply, val_main_cst_0_apply, val_main_cst_1_apply, val_main_cst_apply]
  have hi : ∀ k, idx_main_v1 (idx_main_v2 (ix2 n z)) k = ix2 n k := fun k =>
    funext fun a => Fin.ext (by match a with | ⟨0, _⟩ => rfl | ⟨1, _⟩ => rfl)
  unfold rowScale absE c4096 cEps
  simp only [val_main_v0_apply, hi, Ideal.maximumf_def, Ideal.hostDivf_def, Ideal.ofBits_def, Ideal.hostAbsf_def,
    Ideal.absf_def, Ideal.ofBits_zero_f32, zero_add]

/-- The threshold column at row `n`: the row scale times the word 0.75. -/
theorem thr_at (w : (⟨S4096x4096, .f32⟩ : BufTy).Contents (Elt Ideal)) (n : Fin 4096) (z : Fin 1) :
    val_main_v8 (F := Ideal) w (ix2 n z) = rowScale w n * c075 := by
  rw [val_main_v8_apply, scale_at, val_main_v7_apply, val_main_cst_2_apply]
  rfl

/-- The ternary weight at (n, k): the two comparisons against the row's threshold and its negation, and the two
    selects over the words 1, −1 and 0. -/
theorem tern_at (w : (⟨S4096x4096, .f32⟩ : BufTy).Contents (Elt Ideal)) (n k : Fin 4096) :
    val_main_v16 (F := Ideal) w (ix2 n k) = tern (rowScale w n) (w (ix2 n k)) := by
  rw [val_main_v16_apply, val_main_v15_apply, val_main_v10_apply, val_main_v9_apply, val_main_v14_apply,
    val_main_v13_apply, val_main_v12_apply, val_main_v11_apply, val_main_call1_v0_apply, val_main_call0_v0_apply,
    val_main_call0_v1_apply, val_main_cst_5_apply, val_main_cst_3_apply, val_main_cst_4_apply]
  have h9 : idx_main_v9 (ix2 n k) = ix2 n (0 : Fin 1) :=
    funext fun a => Fin.ext (by match a with | ⟨0, _⟩ => rfl | ⟨1, _⟩ => rfl)
  have h12 : idx_main_v12 (ix2 n k) = ix2 n (0 : Fin 1) :=
    funext fun a => Fin.ext (by match a with | ⟨0, _⟩ => rfl | ⟨1, _⟩ => rfl)
  rw [h9, h12, thr_at]
  unfold tern cOne cNegOne cZero
  simp only [Ideal.cmpf_def, Ideal.cmp, Ideal.hostNegf_def, Ideal.negf_def, Ideal.ofBits_def, select_ofBool]

/-- The straight-through mask at an entry: the comparison of the absolute value with the word 1, as 1 or 0. -/
theorem mask_at (w : (⟨S4096x4096, .f32⟩ : BufTy).Contents (Elt Ideal)) (i : S4096x4096.Idx) :
    val_main_v20 (F := Ideal) w i = steMask (w i) := by
  rw [val_main_v20_apply, val_main_v19_apply, val_main_v17_apply, val_main_v18_apply, val_main_cst_6_apply]
  unfold steMask absE cOne
  simp only [Ideal.cmpf_def, Ideal.cmp, Ideal.hostAbsf_def, Ideal.absf_def, Ideal.ofBits_def, uitofp_ofBool]

/-- The effective weight at (n, k): the blend of the entry, its mask and its ternary weight, times the row scale. -/
theorem blend_at (w : (⟨S4096x4096, .f32⟩ : BufTy).Contents (Elt Ideal)) (n k : Fin 4096) :
    val_main_v26 (F := Ideal) w (ix2 n k) = wEffBlend w (ix2 n k) := by
  rw [val_main_v26_apply, val_main_v24_apply, val_main_v21_apply, val_main_v23_apply, val_main_v22_apply,
    val_main_v25_apply, mask_at, tern_at]
  have h25 : idx_main_v25 (ix2 n k) = ix2 n (0 : Fin 1) :=
    funext fun a => Fin.ext (by match a with | ⟨0, _⟩ => rfl | ⟨1, _⟩ => rfl)
  rw [h25, scale_at]
  rfl

/-- The product at (r, n): the transposed matrix at (k, n) is the effective weight at (n, k), so the contraction's
    sum over k is x (r, k) times the effective weight at (n, k). -/
theorem dot_at (x : (⟨S8192x4096, .f32⟩ : BufTy).Contents (Elt Ideal))
    (w : (⟨S4096x4096, .f32⟩ : BufTy).Contents (Elt Ideal)) (r : Fin 8192) (n : Fin 4096) :
    val_main_v28 (F := Ideal) x w (ix2 r n) = prodRowT x (wEffBlend w) r n := by
  rw [val_main_v28_apply]
  unfold prodRowT
  refine Finset.sum_congr rfl fun k _ => ?_
  have hl : lidx_main_v28 (ix2 r n) k = ix2 r k :=
    funext fun a => Fin.ext (by match a with | ⟨0, _⟩ => rfl | ⟨1, _⟩ => rfl)
  have hr : idx_main_v27 (ridx_main_v28 (ix2 r n) k) = ix2 n k :=
    funext fun a => Fin.ext (by match a with | ⟨0, _⟩ => rfl | ⟨1, _⟩ => rfl)
  rw [val_main_v27_apply, hl, hr, blend_at]

/-- The bias laid over the rows: at (r, n) it is the bias at n. -/
theorem bias_at (b : (⟨S4096, .f32⟩ : BufTy).Contents (Elt Ideal)) (r : Fin 8192) (n : Fin 4096) :
    val_main_v30 (F := Ideal) b (ix2 r n) = b (ix1 n) := by
  rw [val_main_v30_apply, val_main_v29_apply]
  exact congrArg b (funext fun a => Fin.ext (by match a with | ⟨0, _⟩ => rfl))

/-- The reference's result is the product with the blended effective weights plus the bias, entry by entry. -/
theorem ref_is_outBlend (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v31 (F := Ideal) x0 x1 x2 = Cert.Spec.outBlend x0 x1 x2 := by
  funext i
  obtain ⟨r, n, rfl⟩ : ∃ (r : Fin 8192) (n : Fin 4096), i = ix2 r n := ⟨i 0, i 1, eq_ix2 i⟩
  rw [val_main_v31_apply, dot_at, bias_at]
  rfl

end Cert.RefValue

end
-- ==== Proof.lean ====
/-
  TernaryLinear: x · w_effᵀ + bias, where w_eff is the weight matrix replaced entry by entry by its ternary weight
  (1, −1 or 0 against three quarters of its row's scale) times the row's scale, the scale being the mean absolute
  value of the row, at least ε.

  The kernel program does this in two regions: the first computes the column of row scales, 512 rows a point; the
  second forms the ternary weights of a 512 × 1024 block of the weights on the fly and accumulates the product with a
  block of x over the four blocks of the contraction, adding the bias after the last.  The reference computes the same
  column, spells the ternary weight through a straight-through blend w · m + (q − w · m) that is q on real weights,
  and takes one whole product.  On the extended reals the two results are one function of the arguments
  (`Spec.out`) as soon as every weight is a real number, which the precondition says.

  The parts: `Parts.lean` (the five claims from the runs and the three facts about values), `KI/Run.lean` and
  `K/Run.lean` (the two kernel programs' runs), `KI/Value0.lean` and `KI/Value1.lean` (what the two regions leave),
  `RefValue.lean` (the reference read entry by entry), `Algebra.lean` (the blend), `Finite.lean` (the precondition).
-/
import proofs.«102023_j37434934952235_1_alg».proof.Defs
import proofs.«102023_j37434934952235_1_alg».proof.Proof.Gen.Kernel
import proofs.«102023_j37434934952235_1_alg».proof.Proof.Gen.KernelIdeal
import proofs.«102023_j37434934952235_1_alg».proof.Proof.Gen.ReferenceIdeal
import proofs.«102023_j37434934952235_1_alg».proof.Proof.Gen.Pre_finite_inputs
import proofs.«102023_j37434934952235_1_alg».proof.Proof.Parts
import proofs.«102023_j37434934952235_1_alg».proof.Proof.KI.Value0
import proofs.«102023_j37434934952235_1_alg».proof.Proof.KI.Value1
import proofs.«102023_j37434934952235_1_alg».proof.Proof.RefValue

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Parts.frame_k, Parts.frame_ki, Parts.frame_r, Parts.preserves,
  Parts.algebraic Cert.KernelIdeal.Value0.scale_final Cert.KernelIdeal.Value1.out_final Cert.RefValue.ref_is_outBlend⟩

end Cert.Proof

end
